-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S1600000 : Shape := ⟨1, ![1600000]⟩
abbrev S256x64 : Shape := ⟨2, ![256, 64]⟩
abbrev S64 : Shape := ⟨1, ![64]⟩
abbrev S64x40 : Shape := ⟨2, ![64, 40]⟩
abbrev S40 : Shape := ⟨1, ![40]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S64x40 : S_.BroadcastsInDim S64x40 (![] : Fin 0 → Fin S64x40.rank)
  reducesTo_S64x40_S_d0_1 : S64x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg6 : FVec F S40 .f32) (main_v13 : IVec S_ 1) (main_v16 : IVec S64x40 1) : IVec S_ 1 :=
  let main_c_5 : IVec S_ 1 := constantI S_ 1 1#1
  let main_v17 : IVec S_ 1 := (fun x v => Host.reduce IntOp.andi x v reducesTo_S64x40_S_d0_1 h_S_) main_v16 main_c_5
  let main_v18 : IVec S_ 1 := andi main_v13 main_v17
  let main_v19 : FVec F S40 .f32 := Host.absf main_arg6
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  main_v23

def fn {F : FTy → Type} [FloatOps F] (main_arg0 : FVec F S100000x256 .f32) (main_arg1 : IVec S1600000 32) (main_arg2 : IVec S1600000 32) (main_arg3 : FVec F S256x64 .f32) (main_arg4 : FVec F S64 .f32) (main_arg5 : FVec F S64x40 .f32) (main_arg6 : FVec F S40 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x64 .f32 := Host.absf main_arg3
  let main_cst_0 : FVec F S_ .f32 := constant S_ .f32 0x7F800000#32
  let main_v5 : FVec F S256x64 .f32 := broadcastInDim S256x64 ![] bcast_S_S256x64 main_cst_0
  let main_v6 : IVec S256x64 1 := cmpf .olt main_v4 main_v5
  let main_c_1 : IVec S_ 1 := constantI S_ 1 1#1
  let main_v7 : IVec S_ 1 := (fun x v => Host.reduce IntOp.andi x v reducesTo_S256x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x40 .f32 := Host.absf main_arg5
  let main_cst_4 : FVec F S_ .f32 := constant S_ .f32 0x7F800000#32
  let main_v15 : FVec F S64x40 .f32 := broadcastInDim S64x40 ![] bcast_S_S64x40 main_cst_4
  let main_v16 : IVec S64x40 1 := cmpf .olt main_v14 main_v15
  fn_part1 (F := F) main_arg6 main_v13 main_v16
-- ==== Kernel.lean ====
abbrev S100000x256 : Shape := ⟨2, ![100000, 256]⟩
abbrev S1600000 : Shape := ⟨1, ![1600000]⟩
abbrev S256x64 : Shape := ⟨2, ![256, 64]⟩
abbrev S64 : Shape := ⟨1, ![64]⟩
abbrev S64x40 : Shape := ⟨2, ![64, 40]⟩
abbrev S40 : Shape := ⟨1, ![40]⟩
abbrev S_ : Shape := ⟨0, ![]⟩
abbrev S100000 : Shape := ⟨1, ![100000]⟩
abbrev S1600000x1 : Shape := ⟨2, ![1600000, 1]⟩
abbrev S102400x256 : Shape := ⟨2, ![102400, 256]⟩
abbrev S102400 : Shape := ⟨1, ![102400]⟩
abbrev S102400x64 : Shape := ⟨2, ![102400, 64]⟩
abbrev S4096x256 : Shape := ⟨2, ![4096, 256]⟩
abbrev S4096 : Shape := ⟨1, ![4096]⟩
abbrev S4096x64 : Shape := ⟨2, ![4096, 64]⟩
abbrev S4096x1 : Shape := ⟨2, ![4096, 1]⟩
abbrev S100000x64 : Shape := ⟨2, ![100000, 64]⟩
abbrev S1600000x64 : Shape := ⟨2, ![1600000, 64]⟩
abbrev S100000x1 : Shape := ⟨2, ![100000, 1]⟩
abbrev S1x64 : Shape := ⟨2, ![1, 64]⟩
abbrev S102400x40 : Shape := ⟨2, ![102400, 40]⟩
abbrev S4096x40 : Shape := ⟨2, ![4096, 40]⟩
abbrev S100000x40 : Shape := ⟨2, ![100000, 40]⟩
abbrev S1600000x40 : Shape := ⟨2, ![1600000, 40]⟩
abbrev S1x40 : Shape := ⟨2, ![1, 40]⟩

abbrev nBuf : Space → Nat
  | .hbm => 81
  | .vmem => 14
  | .smem => 0
  | _ => 0

abbrev bufTy : (tb : Table) → Fin (tcTables nBuf tb) → BufTy
  | .hbm, ⟨0, _⟩ => ⟨S100000x256, .f32⟩
  | .hbm, ⟨1, _⟩ => ⟨S1600000, .i32⟩
  | .hbm, ⟨2, _⟩ => ⟨S1600000, .i32⟩
  | .hbm, ⟨3, _⟩ => ⟨S256x64, .f32⟩
  | .hbm, ⟨4, _⟩ => ⟨S64, .f32⟩
  | .hbm, ⟨5, _⟩ => ⟨S64x40, .f32⟩
  | .hbm, ⟨6, _⟩ => ⟨S40, .f32⟩
  | .hbm, ⟨7, _⟩ => ⟨S_, .f32⟩
  | .hbm, ⟨8, _⟩ => ⟨S1600000, .f32⟩
  | .hbm, ⟨9, _⟩ => ⟨S_, .f32⟩
  | .hbm, ⟨10, _⟩ => ⟨S100000, .f32⟩
  | .hbm, ⟨11, _⟩ => ⟨S1600000x1, .i32⟩
  | .hbm, ⟨12, _⟩ => ⟨S100000, .f32⟩
  | .hbm, ⟨13, _⟩ => ⟨S_, .f32⟩
  | .hbm, ⟨14, _⟩ => ⟨S100000, .f32⟩
  | .hbm, ⟨15, _⟩ => ⟨S1600000x1, .i32⟩
  | .hbm, ⟨16, _⟩ => ⟨S100000, .f32⟩
  | .hbm, ⟨17, _⟩ => ⟨S_, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S100000, .f32⟩
  | .hbm, ⟨22, _⟩ => ⟨S_, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S_, .f32⟩
  | .hbm, ⟨29, _⟩ => ⟨S102400x256, .f32⟩
  | .hbm, ⟨30, _⟩ => ⟨S_, .i32⟩
  | .hbm, ⟨31, _⟩ => ⟨S_, .f32⟩
  | .hbm, ⟨32, _⟩ => ⟨S102400, .f32⟩
  | .hbm, ⟨33, _⟩ => ⟨S102400x64, .f32⟩
  | .hbm, ⟨34, _⟩ => ⟨S100000x64, .f32⟩
  | .hbm, ⟨35, _⟩ => ⟨S_, .i32⟩
  | .hbm, ⟨36, _⟩ => ⟨S1600000, .i32⟩
  | .hbm, ⟨37, _⟩ => ⟨S1600000, .i1⟩
  | .hbm, ⟨38, _⟩ => ⟨S_, .i32⟩
  | .hbm, ⟨39, _⟩ => ⟨S1600000, .i32⟩
  | .hbm, ⟨40, _⟩ => ⟨S1600000, .i32⟩
  | .hbm, ⟨41, _⟩ => ⟨S1600000, .i32⟩
  | .hbm, ⟨42, _⟩ => ⟨S1600000x1, .i32⟩
  | .hbm, ⟨43, _⟩ => ⟨S1600000x64, .f32⟩
  | .hbm, ⟨44, _⟩ => ⟨S_, .f32⟩
  | .hbm, ⟨45, _⟩ => ⟨S100000x64, .f32⟩
  | .hbm, ⟨46, _⟩ => ⟨S1600000x1, .i32⟩
  | .hbm, ⟨47, _⟩ => ⟨S100000x64, .f32⟩
  | .hbm, ⟨48, _⟩ => ⟨S100000x1, .f32⟩
  | .hbm, ⟨49, _⟩ => ⟨S100000x64, .f32⟩
  | .hbm, ⟨50, _⟩ => ⟨S100000x64, .f32⟩
  | .hbm, ⟨51, _⟩ => ⟨S1x64, .f32⟩
  | .hbm, ⟨52, _⟩ => ⟨S100000x64, .f32⟩
  | .hbm, ⟨53, _⟩ => ⟨S100000x64, .f32⟩
  | .hbm, ⟨54, _⟩ => ⟨S_, .i32⟩
  | .hbm, ⟨55, _⟩ => ⟨S_, .f32⟩
  | .hbm, ⟨56, _⟩ => ⟨S102400x64, .f32⟩
  | .hbm, ⟨57, _⟩ => ⟨S_, .i32⟩
  | .hbm, ⟨58, _⟩ => ⟨S_, .f32⟩
  | .hbm, ⟨59, _⟩ => ⟨S102400, .f32⟩
  | .hbm, ⟨60, _⟩ => ⟨S102400x40, .f32⟩
  | .hbm, ⟨61, _⟩ => ⟨S100000x40, .f32⟩
  | .hbm, ⟨62, _⟩ => ⟨S_, .i32⟩
  | .hbm, ⟨63, _⟩ => ⟨S1600000, .i32⟩
  | .hbm, ⟨64, _⟩ => ⟨S1600000, .i1⟩
  | .hbm, ⟨65, _⟩ => ⟨S_, .i32⟩
  | .hbm, ⟨66, _⟩ => ⟨S1600000, .i32⟩
  | .hbm, ⟨67, _⟩ => ⟨S1600000, .i32⟩
  | .hbm, ⟨68, _⟩ => ⟨S1600000, .i32⟩
  | .hbm, ⟨69, _⟩ => ⟨S1600000x1, .i32⟩
  | .hbm, ⟨70, _⟩ => ⟨S1600000x40, .f32⟩
  | .hbm, ⟨71, _⟩ => ⟨S_, .f32⟩
  | .hbm, ⟨72, _⟩ => ⟨S100000x40, .f32⟩
  | .hbm, ⟨73, _⟩ => ⟨S1600000x1, .i32⟩
  | .hbm, ⟨74, _⟩ => ⟨S100000x40, .f32⟩
  | .hbm, ⟨75, _⟩ => ⟨S100000x1, .f32⟩
  | .hbm, ⟨76, _⟩ => ⟨S100000x40, .f32⟩
  | .hbm, ⟨77, _⟩ => ⟨S100000x40, .f32⟩
  | .hbm, ⟨78, _⟩ => ⟨S1x40, .f32⟩
  | .hbm, ⟨79, _⟩ => ⟨S100000x40, .f32⟩
  | .hbm, ⟨80, _⟩ => ⟨S100000x40, .f32⟩
  | .local _ .vmem, ⟨0, _⟩ => ⟨S4096x256, .f32⟩
  | .local _ .vmem, ⟨1, _⟩ => ⟨S4096x256, .f32⟩
  | .local _ .vmem, ⟨2, _⟩ => ⟨S4096, .f32⟩
  | .local _ .vmem, ⟨3, _⟩ => ⟨S4096, .f32⟩
  | .local _ .vmem, ⟨4, _⟩ => ⟨S256x64, .f32⟩
  | .local _ .vmem, ⟨5, _⟩ => ⟨S4096x64, .f32⟩
  | .local _ .vmem, ⟨6, _⟩ => ⟨S4096x64, .f32⟩
  | .local _ .vmem, ⟨7, _⟩ => ⟨S4096x64, .f32⟩
  | .local _ .vmem, ⟨8, _⟩ => ⟨S4096x64, .f32⟩
  | .local _ .vmem, ⟨9, _⟩ => ⟨S4096, .f32⟩
  | .local _ .vmem, ⟨10, _⟩ => ⟨S4096, .f32⟩
  | .local _ .vmem, ⟨11, _⟩ => ⟨S64x40, .f32⟩
  | .local _ .vmem, ⟨12, _⟩ => ⟨S4096x40, .f32⟩
  | .local _ .vmem, ⟨13, _⟩ => ⟨S4096x40, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_call0_v0 : Ref sig .tc := ⟨.hbm, 18, rfl⟩
abbrev main_call0_v1 : Ref sig .tc := ⟨.hbm, 19, rfl⟩
abbrev main_v7 : Ref sig .tc := ⟨.hbm, 20, rfl⟩
abbrev main_v8 : Ref sig .tc := ⟨.hbm, 21, rfl⟩
abbrev main_cst_3 : Ref sig .tc := ⟨.hbm, 22, rfl⟩
abbrev main_call1_v0 : Ref sig .tc := ⟨.hbm, 23, rfl⟩
abbrev main_call1_v1 : Ref sig .tc := ⟨.hbm, 24, rfl⟩
abbrev main_v9 : Ref sig .tc := ⟨.hbm, 25, rfl⟩
abbrev main_v10 : Ref sig .tc := ⟨.hbm, 26, rfl⟩
abbrev main_c : Ref sig .tc := ⟨.hbm, 27, rfl⟩
abbrev main_call2_v0 : Ref sig .tc := ⟨.hbm, 28, rfl⟩
abbrev main_v11 : Ref sig .tc := ⟨.hbm, 29, rfl⟩
abbrev main_c_4 : Ref sig .tc := ⟨.hbm, 30, rfl⟩
abbrev main_call3_v0 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_c_5 : Ref sig .tc := ⟨.hbm, 35, rfl⟩
abbrev main_v15 : Ref sig .tc := ⟨.hbm, 36, rfl⟩
abbrev main_v16 : Ref sig .tc := ⟨.hbm, 37, rfl⟩
abbrev main_c_6 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_cst_7 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_c_8 : Ref sig .tc := ⟨.hbm, 54, rfl⟩
abbrev main_call4_v0 : Ref sig .tc := ⟨.hbm, 55, rfl⟩
abbrev main_v31 : Ref sig .tc := ⟨.hbm, 56, rfl⟩
abbrev main_c_9 : Ref sig .tc := ⟨.hbm, 57, rfl⟩
abbrev main_call5_v0 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_c_10 : Ref sig .tc := ⟨.hbm, 62, rfl⟩
abbrev main_v35 : Ref sig .tc := ⟨.hbm, 63, rfl⟩
abbrev main_v36 : Ref sig .tc := ⟨.hbm, 64, rfl⟩
abbrev main_c_11 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_cst_12 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 1 → Nat :=
  let arg0 : BitVec 32 := BitVec.ofNat 32 (i 0).val
  let c0_i32 : BitVec 32 := 0#32
  ![arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4096x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  ![arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4096x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4096 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x40 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S4096x40 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  pads_S100000x256_S102400x256_024000_000 : S100000x256.Pads (![0, 0] : Fin 2 → Nat) ![2400, 0] ![0, 0] S102400x256
  h_S_ : 0 < S_.numel
  pads_S100000_S102400_024000 : S100000.Pads (![0] : Fin 1 → Nat) ![2400] ![0] S102400
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  inb_S4096_S4096_0 : ∀ a, (![0] : Fin 1 → Nat) a + S4096.size a ≤ S4096.size a
  h_S4096 : 0 < S4096.numel
  shapeCasts_S4096_S4096 : S4096.ShapeCasts S4096
  shapeCasts_S4096_S4096x1 : S4096.ShapeCasts S4096x1
  broadcasts_S4096x1_S4096x256 : S4096x1.Broadcasts S4096x256
  bitsLt_bf16_f32 : FTy.bits .bf16 < FTy.bits .f32
  inb_S256x64_S256x64_0_0 : ∀ a, (![0, 0] : Fin 2 → Nat) a + S256x64.size a ≤ S256x64.size a
  h_S256x64 : 0 < S256x64.numel
  inb_S4096x64_S4096x64_0_0 : ∀ a, (![0, 0] : Fin 2 → Nat) a + S4096x64.size a ≤ S4096x64.size a
  h_S4096x64 : 0 < S4096x64.numel
  slices_S102400x64_S100000x64_0_0 : S102400x64.Slices ![0, 0] S100000x64
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  pads_S100000x64_S102400x64_024000_000 : S100000x64.Pads (![0, 0] : Fin 2 → Nat) ![2400, 0] ![0, 0] S102400x64
  shapeCasts_S4096x64_S4096x64 : S4096x64.ShapeCasts S4096x64
  broadcasts_S4096x1_S4096x64 : S4096x1.Broadcasts S4096x64
  inb_S64x40_S64x40_0_0 : ∀ a, (![0, 0] : Fin 2 → Nat) a + S64x40.size a ≤ S64x40.size a
  h_S64x40 : 0 < S64x40.numel
  inb_S4096x40_S4096x40_0_0 : ∀ a, (![0, 0] : Fin 2 → Nat) a + S4096x40.size a ≤ S4096x40.size a
  h_S4096x40 : 0 < S4096x40.numel
  slices_S102400x40_S100000x40_0_0 : S102400x40.Slices ![0, 0] S100000x40
  bcast_S_S100000x40 : S_.BroadcastsInDim S100000x40 (![] : Fin 0 → Fin S100000x40.rank)
  bcast_S100000x1_S100000x40_0_1 : S100000x1.BroadcastsInDim S100000x40 (![0, 1] : Fin 2 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  scatter_S100000_S1600000x1_S1600000_n_0_0_1_wf : ScatterDims.WF S100000 S1600000x1 S1600000 [] [0] [0] 1
  dot_S4096x256_S256x64_S4096x64_1_0_0_1_n_n_wf : DotDims.WF S4096x256 S256x64 S4096x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S4096x64_S64x40_S4096x40_1_0_0_1_n_n_wf : DotDims.WF S4096x64 S64x40 S4096x40 [1] [0] [0] [1] [] []
  gather_S100000x40_S1600000x1_S1600000x40_1_0_n_n_0_1_140_wf : GatherDims.WF S100000x40 S1600000x1 S1600000x40 [1] [0] [] [0] [] 1 ![1, 40]
  scatter_S100000x40_S1600000x1_S1600000x40_1_0_0_1_wf : ScatterDims.WF S100000x40 S1600000x1 S1600000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x256.size a ≤ S102400x256.size a
  hwx0_0 : ∀ i : grid0.Coords, EltTy.bits .f32 = 32 ∨ (Rect.block (s := S102400x256) S4096x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096.size a ≤ S102400.size a
  hwx0_1 : ∀ i : grid0.Coords, EltTy.bits .f32 = 32 ∨ (Rect.block (s := S102400) S4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x64.size a ≤ S256x64.size a
  hwx0_2 : ∀ i : grid0.Coords, EltTy.bits .f32 = 32 ∨ (Rect.block (s := S256x64) S256x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x64.size a ≤ S102400x64.size a
  hwx0_3 : ∀ i : grid0.Coords, EltTy.bits .f32 = 32 ∨ (Rect.block (s := S102400x64) S4096x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x64.size a ≤ S102400x64.size a
  hwx1_0 : ∀ i : grid1.Coords, EltTy.bits .f32 = 32 ∨ (Rect.block (s := S102400x64) S4096x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096.size a ≤ S102400.size a
  hwx1_1 : ∀ i : grid1.Coords, EltTy.bits .f32 = 32 ∨ (Rect.block (s := S102400) S4096.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x40.size a ≤ S64x40.size a
  hwx1_2 : ∀ i : grid1.Coords, EltTy.bits .f32 = 32 ∨ (Rect.block (s := S64x40) S64x40.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4096x40.size a ≤ S102400x40.size a
  hwx1_3 : ∀ i : grid1.Coords, EltTy.bits .f32 = 32 ∨ (Rect.block (s := S102400x40) S4096x40.size (cc1_transform_3 i) (hinb1_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S4096x256_S256x64_S4096x64_1_0_0_1_n_n : DotDims S4096x256 S256x64 S4096x64 where
  lhsContracting := [1]
  rhsContracting := [0]
  lhsNonContracting := [0]
  rhsNonContracting := [1]
  lhsBatch := []
  rhsBatch := []
  wf := dot_S4096x256_S256x64_S4096x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S4096x64_S64x40_S4096x40_1_0_0_1_n_n : DotDims S4096x64 S64x40 S4096x40 where
  lhsContracting := [1]
  rhsContracting := [0]
  lhsNonContracting := [0]
  rhsNonContracting := [1]
  lhsBatch := []
  rhsBatch := []
  wf := dot_S4096x64_S64x40_S4096x40_1_0_0_1_n_n_wf
def gather_S100000x40_S1600000x1_S1600000x40_1_0_n_n_0_1_140 : GatherDims S100000x40 S1600000x1 S1600000x40 where
  offsetDims := [1]
  collapsedSliceDims := [0]
  operandBatchingDims := []
  startIndicesBatchingDims := []
  startIndexMap := [0]
  indexVectorDim := 1
  sliceSizes := ![1, 40]
  wf := gather_S100000x40_S1600000x1_S1600000x40_1_0_n_n_0_1_140_wf
def scatter_S100000x40_S1600000x1_S1600000x40_1_0_0_1 : ScatterDims S100000x40 S1600000x1 S1600000x40 where
  updateWindowDims := [1]
  insertedWindowDims := [0]
  scatterDimsToOperandDims := [0]
  indexVectorDim := 1
  wf := scatter_S100000x40_S1600000x1_S1600000x40_1_0_0_1_wf

abbrev win0_0 : Pipeline.Window sig grid0 :=
  Pipeline.Window.ofSpec (Memref.whole main_v11) S4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S256x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v13) S4096x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v31) S4096x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v32) S4096.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S64x40.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v33) S4096x40.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x256 : Shape := ⟨2, ![100000, 256]⟩
abbrev S1600000 : Shape := ⟨1, ![1600000]⟩
abbrev S256x64 : Shape := ⟨2, ![256, 64]⟩
abbrev S64 : Shape := ⟨1, ![64]⟩
abbrev S64x40 : Shape := ⟨2, ![64, 40]⟩
abbrev S40 : Shape := ⟨1, ![40]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S100000x64 : Shape := ⟨2, ![100000, 64]⟩
abbrev S1600000x64 : Shape := ⟨2, ![1600000, 64]⟩
abbrev S1x64 : Shape := ⟨2, ![1, 64]⟩
abbrev S100000x40 : Shape := ⟨2, ![100000, 40]⟩
abbrev S1600000x40 : Shape := ⟨2, ![1600000, 40]⟩
abbrev S1x40 : Shape := ⟨2, ![1, 40]⟩

abbrev nBuf : Space → Nat
  | .hbm => 93
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S1600000, .i32⟩
  | .hbm, ⟨2, _⟩ => ⟨S1600000, .i32⟩
  | .hbm, ⟨3, _⟩ => ⟨S256x64, .f32⟩
  | .hbm, ⟨4, _⟩ => ⟨S64, .f32⟩
  | .hbm, ⟨5, _⟩ => ⟨S64x40, .f32⟩
  | .hbm, ⟨6, _⟩ => ⟨S40, .f32⟩
  | .hbm, ⟨7, _⟩ => ⟨S_, .f32⟩
  | .hbm, ⟨8, _⟩ => ⟨S1600000, .f32⟩
  | .hbm, ⟨9, _⟩ => ⟨S_, .f32⟩
  | .hbm, ⟨10, _⟩ => ⟨S100000, .f32⟩
  | .hbm, ⟨11, _⟩ => ⟨S1600000x1, .i32⟩
  | .hbm, ⟨12, _⟩ => ⟨S100000, .f32⟩
  | .hbm, ⟨13, _⟩ => ⟨S_, .f32⟩
  | .hbm, ⟨14, _⟩ => ⟨S100000, .f32⟩
  | .hbm, ⟨15, _⟩ => ⟨S1600000x1, .i32⟩
  | .hbm, ⟨16, _⟩ => ⟨S100000, .f32⟩
  | .hbm, ⟨17, _⟩ => ⟨S_, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S100000, .f32⟩
  | .hbm, ⟨22, _⟩ => ⟨S_, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S100000, .f32⟩
  | .hbm, ⟨27, _⟩ => ⟨S100000x1, .f32⟩
  | .hbm, ⟨28, _⟩ => ⟨S100000x256, .f32⟩
  | .hbm, ⟨29, _⟩ => ⟨S100000x256, .f32⟩
  | .hbm, ⟨30, _⟩ => ⟨S100000x64, .f32⟩
  | .hbm, ⟨31, _⟩ => ⟨S_, .i32⟩
  | .hbm, ⟨32, _⟩ => ⟨S1600000, .i32⟩
  | .hbm, ⟨33, _⟩ => ⟨S1600000, .i1⟩
  | .hbm, ⟨34, _⟩ => ⟨S_, .i32⟩
  | .hbm, ⟨35, _⟩ => ⟨S1600000, .i32⟩
  | .hbm, ⟨36, _⟩ => ⟨S1600000, .i32⟩
  | .hbm, ⟨37, _⟩ => ⟨S1600000, .i32⟩
  | .hbm, ⟨38, _⟩ => ⟨S1600000x1, .i32⟩
  | .hbm, ⟨39, _⟩ => ⟨S1600000x64, .f32⟩
  | .hbm, ⟨40, _⟩ => ⟨S_, .f32⟩
  | .hbm, ⟨41, _⟩ => ⟨S100000x64, .f32⟩
  | .hbm, ⟨42, _⟩ => ⟨S1600000x1, .i32⟩
  | .hbm, ⟨43, _⟩ => ⟨S100000x64, .f32⟩
  | .hbm, ⟨44, _⟩ => ⟨S100000x1, .f32⟩
  | .hbm, ⟨45, _⟩ => ⟨S100000x64, .f32⟩
  | .hbm, ⟨46, _⟩ => ⟨S100000x64, .f32⟩
  | .hbm, ⟨47, _⟩ => ⟨S1x64, .f32⟩
  | .hbm, ⟨48, _⟩ => ⟨S100000x64, .f32⟩
  | .hbm, ⟨49, _⟩ => ⟨S100000x64, .f32⟩
  | .hbm, ⟨50, _⟩ => ⟨S_, .f32⟩
  | .hbm, ⟨51, _⟩ => ⟨S1600000, .f32⟩
  | .hbm, ⟨52, _⟩ => ⟨S_, .f32⟩
  | .hbm, ⟨53, _⟩ => ⟨S100000, .f32⟩
  | .hbm, ⟨54, _⟩ => ⟨S1600000x1, .i32⟩
  | .hbm, ⟨55, _⟩ => ⟨S100000, .f32⟩
  | .hbm, ⟨56, _⟩ => ⟨S_, .f32⟩
  | .hbm, ⟨57, _⟩ => ⟨S100000, .f32⟩
  | .hbm, ⟨58, _⟩ => ⟨S1600000x1, .i32⟩
  | .hbm, ⟨59, _⟩ => ⟨S100000, .f32⟩
  | .hbm, ⟨60, _⟩ => ⟨S_, .f32⟩
  | .hbm, ⟨61, _⟩ => ⟨S_, .f32⟩
  | .hbm, ⟨62, _⟩ => ⟨S100000, .f32⟩
  | .hbm, ⟨63, _⟩ => ⟨S100000, .f32⟩
  | .hbm, ⟨64, _⟩ => ⟨S100000, .f32⟩
  | .hbm, ⟨65, _⟩ => ⟨S_, .f32⟩
  | .hbm, ⟨66, _⟩ => ⟨S_, .f32⟩
  | .hbm, ⟨67, _⟩ => ⟨S100000, .f32⟩
  | .hbm, ⟨68, _⟩ => ⟨S100000, .f32⟩
  | .hbm, ⟨69, _⟩ => ⟨S100000, .f32⟩
  | .hbm, ⟨70, _⟩ => ⟨S100000x1, .f32⟩
  | .hbm, ⟨71, _⟩ => ⟨S100000x64, .f32⟩
  | .hbm, ⟨72, _⟩ => ⟨S100000x64, .f32⟩
  | .hbm, ⟨73, _⟩ => ⟨S100000x40, .f32⟩
  | .hbm, ⟨74, _⟩ => ⟨S_, .i32⟩
  | .hbm, ⟨75, _⟩ => ⟨S1600000, .i32⟩
  | .hbm, ⟨76, _⟩ => ⟨S1600000, .i1⟩
  | .hbm, ⟨77, _⟩ => ⟨S_, .i32⟩
  | .hbm, ⟨78, _⟩ => ⟨S1600000, .i32⟩
  | .hbm, ⟨79, _⟩ => ⟨S1600000, .i32⟩
  | .hbm, ⟨80, _⟩ => ⟨S1600000, .i32⟩
  | .hbm, ⟨81, _⟩ => ⟨S1600000x1, .i32⟩
  | .hbm, ⟨82, _⟩ => ⟨S1600000x40, .f32⟩
  | .hbm, ⟨83, _⟩ => ⟨S_, .f32⟩
  | .hbm, ⟨84, _⟩ => ⟨S100000x40, .f32⟩
  | .hbm, ⟨85, _⟩ => ⟨S1600000x1, .i32⟩
  | .hbm, ⟨86, _⟩ => ⟨S100000x40, .f32⟩
  | .hbm, ⟨87, _⟩ => ⟨S100000x1, .f32⟩
  | .hbm, ⟨88, _⟩ => ⟨S100000x40, .f32⟩
  | .hbm, ⟨89, _⟩ => ⟨S100000x40, .f32⟩
  | .hbm, ⟨90, _⟩ => ⟨S1x40, .f32⟩
  | .hbm, ⟨91, _⟩ => ⟨S100000x40, .f32⟩
  | .hbm, ⟨92, _⟩ => ⟨S100000x40, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_call0_v0 : Ref sig .tc := ⟨.hbm, 18, rfl⟩
abbrev main_call0_v1 : Ref sig .tc := ⟨.hbm, 19, rfl⟩
abbrev main_v7 : Ref sig .tc := ⟨.hbm, 20, rfl⟩
abbrev main_v8 : Ref sig .tc := ⟨.hbm, 21, rfl⟩
abbrev main_cst_3 : Ref sig .tc := ⟨.hbm, 22, rfl⟩
abbrev main_call1_v0 : Ref sig .tc := ⟨.hbm, 23, rfl⟩
abbrev main_call1_v1 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_4 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_5 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_6 : Ref sig .tc := ⟨.hbm, 50, rfl⟩
abbrev main_v31 : Ref sig .tc := ⟨.hbm, 51, rfl⟩
abbrev main_cst_7 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_8 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_cst_9 : Ref sig .tc := ⟨.hbm, 60, rfl⟩
abbrev main_call2_v0 : Ref sig .tc := ⟨.hbm, 61, rfl⟩
abbrev main_call2_v1 : Ref sig .tc := ⟨.hbm, 62, rfl⟩
abbrev main_v38 : Ref sig .tc := ⟨.hbm, 63, rfl⟩
abbrev main_v39 : Ref sig .tc := ⟨.hbm, 64, rfl⟩
abbrev main_cst_10 : Ref sig .tc := ⟨.hbm, 65, rfl⟩
abbrev main_call3_v0 : Ref sig .tc := ⟨.hbm, 66, rfl⟩
abbrev main_call3_v1 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_c_11 : Ref sig .tc := ⟨.hbm, 74, rfl⟩
abbrev main_v46 : Ref sig .tc := ⟨.hbm, 75, rfl⟩
abbrev main_v47 : Ref sig .tc := ⟨.hbm, 76, rfl⟩
abbrev main_c_12 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_cst_13 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x256_0_1 : S100000x1.BroadcastsInDim S100000x256 (![0, 1] : Fin 2 → Fin S100000x256.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x40 : S_.BroadcastsInDim S100000x40 (![] : Fin 0 → Fin S100000x40.rank)
  bcast_S100000x1_S100000x40_0_1 : S100000x1.BroadcastsInDim S100000x40 (![0, 1] : Fin 2 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  scatter_S100000_S1600000x1_S1600000_n_0_0_1_wf : ScatterDims.WF S100000 S1600000x1 S1600000 [] [0] [0] 1
  dot_S100000x256_S256x64_S100000x64_1_0_0_1_n_n_wf : DotDims.WF S100000x256 S256x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x40_S100000x40_1_0_0_1_n_n_wf : DotDims.WF S100000x64 S64x40 S100000x40 [1] [0] [0] [1] [] []
  gather_S100000x40_S1600000x1_S1600000x40_1_0_n_n_0_1_140_wf : GatherDims.WF S100000x40 S1600000x1 S1600000x40 [1] [0] [] [0] [] 1 ![1, 40]
  scatter_S100000x40_S1600000x1_S1600000x40_1_0_0_1_wf : ScatterDims.WF S100000x40 S1600000x1 S1600000x40 [1] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x256_S256x64_S100000x64_1_0_0_1_n_n : DotDims S100000x256 S256x64 S100000x64 where
  lhsContracting := [1]
  rhsContracting := [0]
  lhsNonContracting := [0]
  rhsNonContracting := [1]
  lhsBatch := []
  rhsBatch := []
  wf := dot_S100000x256_S256x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x40_S100000x40_1_0_0_1_n_n : DotDims S100000x64 S64x40 S100000x40 where
  lhsContracting := [1]
  rhsContracting := [0]
  lhsNonContracting := [0]
  rhsNonContracting := [1]
  lhsBatch := []
  rhsBatch := []
  wf := dot_S100000x64_S64x40_S100000x40_1_0_0_1_n_n_wf
def gather_S100000x40_S1600000x1_S1600000x40_1_0_n_n_0_1_140 : GatherDims S100000x40 S1600000x1 S1600000x40 where
  offsetDims := [1]
  collapsedSliceDims := [0]
  operandBatchingDims := []
  startIndicesBatchingDims := []
  startIndexMap := [0]
  indexVectorDim := 1
  sliceSizes := ![1, 40]
  wf := gather_S100000x40_S1600000x1_S1600000x40_1_0_n_n_0_1_140_wf
def scatter_S100000x40_S1600000x1_S1600000x40_1_0_0_1 : ScatterDims S100000x40 S1600000x1 S1600000x40 where
  updateWindowDims := [1]
  insertedWindowDims := [0]
  scatterDimsToOperandDims := [0]
  indexVectorDim := 1
  wf := scatter_S100000x40_S1600000x1_S1600000x40_1_0_0_1_wf

class Facts : Prop extends Facts₀ where

variable [Facts]
-- ==== Proof.KFold.lean ====
/-
  The host side of the kernel's program, read through the run's boundary contents.
  The program computes, once, the two degree normalisations D^{-1/2} (the number of edges leaving / entering a node,
  at least 1, to the power -1/2), and then twice: pad the node features and the out-normalisation with 2400 zero rows,
  run the dense pallas_call, cut the result back to 100000 rows, gather it along the edges' sources (a negative index
  wrapped once), add the gathered rows up per destination node, scale row-wise by the in-normalisation and add the bias.
  Here each stretch of host operations is read at the buffers the next stage needs, as a function of the contents it
  starts from; composed along the boundaries they give what each pallas_call finds in its operand arrays and what the
  result buffer holds after the last stretch, in terms of the launch memory and of the two pallas_calls' output arrays.
-/
import proofs.«127029_j18047452578197_1_alg».proof.Proof.Gen.KernelIdeal.Frame
import Idealize.ShloMosaic.Lib.StableHlo.Run

set_option maxRecDepth 16384

noncomputable section

namespace Cert.KernelIdeal.KFold

open Cert.KernelIdeal Cert.KernelIdeal.Gen
open Idealize.ShloMosaic Idealize.ShloMosaic.TcCoe Idealize.SL.Sem Idealize.ShloMosaic.StableHlo

variable {F : FTy → Type} [FloatOps F]

/-! ## The host chains, each named once -/

/-- The degree normalisation of an endpoint list: per node the number of edges whose endpoint it is (a scatter-add of
    ones into zeros), clipped below at 1, to the power -1/2. -/
def degNorm (e : (⟨S1600000, .i32⟩ : BufTy).Contents (Elt F)) : (⟨S100000, .f32⟩ : BufTy).Contents (Elt F) :=
  Host.rsqrt (maximumf (broadcastInDim S100000 ![] bcast_S_S100000 (id (constant S_ .f32 0x3F800000#32)))
    (Host.scatterAdd scatter_S100000_S1600000x1_S1600000_n_0_0_1
      (broadcastInDim S100000 ![] bcast_S_S100000 (constant S_ .f32 0x00000000#32))
      (broadcastInDim S1600000x1 ![0] bcast_S1600000_S1600000x1_0 e)
      (broadcastInDim S1600000 ![] bcast_S_S1600000 (constant S_ .f32 0x3F800000#32))))

/-- The source list with a negative index wrapped once (index + 100000), as the gather's start indices. -/
def wrapIdx (src : (⟨S1600000, .i32⟩ : BufTy).Contents (Elt F)) : (⟨S1600000x1, .i32⟩ : BufTy).Contents (Elt F) :=
  broadcastInDim S1600000x1 ![0] bcast_S1600000_S1600000x1_0
    (select (cmpi .slt src (broadcastInDim S1600000 ![] bcast_S_S1600000 (constantI S_ 32 0#32)))
      (addi src (broadcastInDim S1600000 ![] bcast_S_S1600000 (constantI S_ 32 100000#32))) src)

/-- One layer's aggregation at width 64: the rows of h gathered along the edges' sources, summed per destination node,
    scaled row-wise by the normalisation, plus the bias. -/
def aggr64 (h : (⟨S100000x64, .f32⟩ : BufTy).Contents (Elt F)) (src dst : (⟨S1600000, .i32⟩ : BufTy).Contents (Elt F))
    (nrm : (⟨S100000, .f32⟩ : BufTy).Contents (Elt F)) (b : (⟨S64, .f32⟩ : BufTy).Contents (Elt F)) :
    (⟨S100000x64, .f32⟩ : BufTy).Contents (Elt F) :=
  addf (mulf (Host.scatterAdd scatter_S100000x64_S1600000x1_S1600000x64_1_0_0_1
        (broadcastInDim S100000x64 ![] bcast_S_S100000x64 (constant S_ .f32 0x00000000#32))
        (broadcastInDim S1600000x1 ![0] bcast_S1600000_S1600000x1_0 dst)
        (Host.gather gather_S100000x64_S1600000x1_S1600000x64_1_0_n_n_0_1_164 h (wrapIdx src)))
      (broadcastInDim S100000x64 ![0, 1] bcast_S100000x1_S100000x64_0_1 (broadcastInDim S100000x1 ![0] bcast_S100000_S100000x1_0 nrm)))
    (broadcastInDim S100000x64 ![0, 1] bcast_S1x64_S100000x64_0_1 (broadcastInDim S1x64 ![1] bcast_S64_S1x64_1 b))

/-- The same at width 40. -/
def aggr40 (h : (⟨S100000x40, .f32⟩ : BufTy).Contents (Elt F)) (src dst : (⟨S1600000, .i32⟩ : BufTy).Contents (Elt F))
    (nrm : (⟨S100000, .f32⟩ : BufTy).Contents (Elt F)) (b : (⟨S40, .f32⟩ : BufTy).Contents (Elt F)) :
    (⟨S100000x40, .f32⟩ : BufTy).Contents (Elt F) :=
  addf (mulf (Host.scatterAdd scatter_S100000x40_S1600000x1_S1600000x40_1_0_0_1
        (broadcastInDim S100000x40 ![] bcast_S_S100000x40 (constant S_ .f32 0x00000000#32))
        (broadcastInDim S1600000x1 ![0] bcast_S1600000_S1600000x1_0 dst)
        (Host.gather gather_S100000x40_S1600000x1_S1600000x40_1_0_n_n_0_1_140 h (wrapIdx src)))
      (broadcastInDim S100000x40 ![0, 1] bcast_S100000x1_S100000x40_0_1 (broadcastInDim S100000x1 ![0] bcast_S100000_S100000x1_0 nrm)))
    (broadcastInDim S100000x40 ![0, 1] bcast_S1x40_S100000x40_0_1 (broadcastInDim S1x40 ![1] bcast_S40_S1x40_1 b))

/-- The padding value: the integer 0 converted to a float. -/
def zpad : (⟨S_, .f32⟩ : BufTy).Contents (Elt F) := sitofp .f32 (constantI S_ 32 0#32)

/-! ## The stretches, from any contents -/

/-- The eight stretches before the first pallas_call, as one fold. -/
abbrev pre0 (V : Valuation τ sig (Elt F)) : Valuation τ sig (Elt F) :=
  after hostOps0_7 (after hostOps0_6 (after hostOps0_5 (after hostOps0_4 (after hostOps0_3 (after hostOps0_2 (after hostOps0_1 (after hostOps0 V)))))))

/-- The four stretches between the two pallas_calls, as one fold. -/
abbrev mid (V : Valuation τ sig (Elt F)) : Valuation τ sig (Elt F) :=
  after hostOps1_3 (after hostOps1_2 (after hostOps1_1 (after hostOps1 V)))

section Stretches
variable (V : Valuation τ sig (Elt F))

theorem pre0_v11 : pre0 V (Proc.devRef .tc main_v11)
    = pad S102400x256 ![0, 0] ![2400, 0] ![0, 0] (V (Proc.devRef .tc main_arg0)) zpad pads_S100000x256_S102400x256_024000_000 h_S_ := by
  dsimp only [pre0]
  simp only [hostOps0, hostOps0_1, hostOps0_2, hostOps0_3, hostOps0_4, hostOps0_5, hostOps0_6, hostOps0_7]
  after_results
  rfl

theorem pre0_v8 : pre0 V (Proc.devRef .tc main_v8) = degNorm (V (Proc.devRef .tc main_arg1)) := by
  dsimp only [pre0]
  simp only [hostOps0, hostOps0_1, hostOps0_2, hostOps0_3, hostOps0_4, hostOps0_5, hostOps0_6, hostOps0_7]
  after_results
  rfl

theorem pre0_v10 : pre0 V (Proc.devRef .tc main_v10) = degNorm (V (Proc.devRef .tc main_arg2)) := by
  dsimp only [pre0]
  simp only [hostOps0, hostOps0_1, hostOps0_2, hostOps0_3, hostOps0_4, hostOps0_5, hostOps0_6, hostOps0_7]
  after_results
  rfl

theorem pre0_v12 : pre0 V (Proc.devRef .tc main_v12)
    = pad S102400 ![0] ![2400] ![0] (degNorm (V (Proc.devRef .tc main_arg1))) zpad pads_S100000_S102400_024000 h_S_ := by
  dsimp only [pre0]
  simp only [hostOps0, hostOps0_1, hostOps0_2, hostOps0_3, hostOps0_4, hostOps0_5, hostOps0_6, hostOps0_7]
  after_results
  rfl

theorem pre0_arg1 : pre0 V (Proc.devRef .tc main_arg1) = V (Proc.devRef .tc main_arg1) := by
  dsimp only [pre0]
  simp only [hostOps0, hostOps0_1, hostOps0_2, hostOps0_3, hostOps0_4, hostOps0_5, hostOps0_6, hostOps0_7]
  after_results
theorem pre0_arg2 : pre0 V (Proc.devRef .tc main_arg2) = V (Proc.devRef .tc main_arg2) := by
  dsimp only [pre0]
  simp only [hostOps0, hostOps0_1, hostOps0_2, hostOps0_3, hostOps0_4, hostOps0_5, hostOps0_6, hostOps0_7]
  after_results
theorem pre0_arg3 : pre0 V (Proc.devRef .tc main_arg3) = V (Proc.devRef .tc main_arg3) := by
  dsimp only [pre0]
  simp only [hostOps0, hostOps0_1, hostOps0_2, hostOps0_3, hostOps0_4, hostOps0_5, hostOps0_6, hostOps0_7]
  after_results
theorem pre0_arg4 : pre0 V (Proc.devRef .tc main_arg4) = V (Proc.devRef .tc main_arg4) := by
  dsimp only [pre0]
  simp only [hostOps0, hostOps0_1, hostOps0_2, hostOps0_3, hostOps0_4, hostOps0_5, hostOps0_6, hostOps0_7]
  after_results
theorem pre0_arg5 : pre0 V (Proc.devRef .tc main_arg5) = V (Proc.devRef .tc main_arg5) := by
  dsimp only [pre0]
  simp only [hostOps0, hostOps0_1, hostOps0_2, hostOps0_3, hostOps0_4, hostOps0_5, hostOps0_6, hostOps0_7]
  after_results
theorem pre0_arg6 : pre0 V (Proc.devRef .tc main_arg6) = V (Proc.devRef .tc main_arg6) := by
  dsimp only [pre0]
  simp only [hostOps0, hostOps0_1, hostOps0_2, hostOps0_3, hostOps0_4, hostOps0_5, hostOps0_6, hostOps0_7]
  after_results

set_option maxHeartbeats 4000000 in
theorem mid_v31 : mid V (Proc.devRef .tc main_v31)
    = pad S102400x64 ![0, 0] ![2400, 0] ![0, 0]
        (aggr64 (extractStridedSlice S100000x64 ![0, 0] (V (Proc.devRef .tc main_v13)) slices_S102400x64_S100000x64_0_0)
          (V (Proc.devRef .tc main_arg1)) (V (Proc.devRef .tc main_arg2)) (V (Proc.devRef .tc main_v10)) (V (Proc.devRef .tc main_arg4)))
        zpad pads_S100000x64_S102400x64_024000_000 h_S_ := by
  dsimp only [mid]
  simp only [hostOps1, hostOps1_1, hostOps1_2, hostOps1_3]
  after_results_simp <;> rfl

theorem mid_v32 : mid V (Proc.devRef .tc main_v32)
    = pad S102400 ![0] ![2400] ![0] (V (Proc.devRef .tc main_v8)) zpad pads_S100000_S102400_024000 h_S_ := by
  dsimp only [mid]
  simp only [hostOps1, hostOps1_1, hostOps1_2, hostOps1_3]
  after_results
  rfl

theorem mid_arg1 : mid V (Proc.devRef .tc main_arg1) = V (Proc.devRef .tc main_arg1) := by
  dsimp only [mid]
  simp only [hostOps1, hostOps1_1, hostOps1_2, hostOps1_3]
  after_results
theorem mid_arg2 : mid V (Proc.devRef .tc main_arg2) = V (Proc.devRef .tc main_arg2) := by
  dsimp only [mid]
  simp only [hostOps1, hostOps1_1, hostOps1_2, hostOps1_3]
  after_results
theorem mid_arg5 : mid V (Proc.devRef .tc main_arg5) = V (Proc.devRef .tc main_arg5) := by
  dsimp only [mid]
  simp only [hostOps1, hostOps1_1, hostOps1_2, hostOps1_3]
  after_results
theorem mid_arg6 : mid V (Proc.devRef .tc main_arg6) = V (Proc.devRef .tc main_arg6) := by
  dsimp only [mid]
  simp only [hostOps1, hostOps1_1, hostOps1_2, hostOps1_3]
  after_results
theorem mid_v10 : mid V (Proc.devRef .tc main_v10) = V (Proc.devRef .tc main_v10) := by
  dsimp only [mid]
  simp only [hostOps1, hostOps1_1, hostOps1_2, hostOps1_3]
  after_results

set_option maxHeartbeats 4000000 in
theorem last_v50 : after hostOps2 V (Proc.devRef .tc main_v50)
    = aggr40 (extractStridedSlice S100000x40 ![0, 0] (V (Proc.devRef .tc main_v33)) slices_S102400x40_S100000x40_0_0)
        (V (Proc.devRef .tc main_arg1)) (V (Proc.devRef .tc main_arg2)) (V (Proc.devRef .tc main_v10)) (V (Proc.devRef .tc main_arg6)) := by
  simp only [hostOps2]
  after_results_simp <;> rfl

end Stretches

/-! ## Along the run's boundaries -/

variable (m : (ℓ : Loc nD τ sig) → Buf (Elt F) ℓ) (ρ : Dev nD → PrngReg)

/-- What the first pallas_call finds in its three operand arrays. -/
theorem V8_v11 (c : Dev nD) : V8 m ρ c main_v11
    = pad S102400x256 ![0, 0] ![2400, 0] ![0, 0] (m ((c : Thread nD τ).loc main_arg0)) zpad pads_S100000x256_S102400x256_024000_000 h_S_ :=
  pre0_v11 (W0 m ρ c)
theorem V8_v12 (c : Dev nD) : V8 m ρ c main_v12
    = pad S102400 ![0] ![2400] ![0] (degNorm (m ((c : Thread nD τ).loc main_arg1))) zpad pads_S100000_S102400_024000 h_S_ :=
  pre0_v12 (W0 m ρ c)
theorem V8_arg3 (c : Dev nD) : V8 m ρ c main_arg3 = m ((c : Thread nD τ).loc main_arg3) :=
  pre0_arg3 (W0 m ρ c)

/-- After the first pallas_call: the buffers it does not write are as before it. -/
theorem W9_arg1 (c : Dev nD) : W9 m ρ c (Proc.devRef .tc main_arg1) = m ((c : Thread nD τ).loc main_arg1) :=
  (W9_of_ne m ρ c main_arg1 (by decide)).trans (pre0_arg1 (W0 m ρ c))
theorem W9_arg2 (c : Dev nD) : W9 m ρ c (Proc.devRef .tc main_arg2) = m ((c : Thread nD τ).loc main_arg2) :=
  (W9_of_ne m ρ c main_arg2 (by decide)).trans (pre0_arg2 (W0 m ρ c))
theorem W9_arg4 (c : Dev nD) : W9 m ρ c (Proc.devRef .tc main_arg4) = m ((c : Thread nD τ).loc main_arg4) :=
  (W9_of_ne m ρ c main_arg4 (by decide)).trans (pre0_arg4 (W0 m ρ c))
theorem W9_arg5 (c : Dev nD) : W9 m ρ c (Proc.devRef .tc main_arg5) = m ((c : Thread nD τ).loc main_arg5) :=
  (W9_of_ne m ρ c main_arg5 (by decide)).trans (pre0_arg5 (W0 m ρ c))
theorem W9_arg6 (c : Dev nD) : W9 m ρ c (Proc.devRef .tc main_arg6) = m ((c : Thread nD τ).loc main_arg6) :=
  (W9_of_ne m ρ c main_arg6 (by decide)).trans (pre0_arg6 (W0 m ρ c))
theorem W9_v8 (c : Dev nD) : W9 m ρ c (Proc.devRef .tc main_v8) = degNorm (m ((c : Thread nD τ).loc main_arg1)) :=
  (W9_of_ne m ρ c main_v8 (by decide)).trans (pre0_v8 (W0 m ρ c))
theorem W9_v10 (c : Dev nD) : W9 m ρ c (Proc.devRef .tc main_v10) = degNorm (m ((c : Thread nD τ).loc main_arg2)) :=
  (W9_of_ne m ρ c main_v10 (by decide)).trans (pre0_v10 (W0 m ρ c))
theorem W9_v13 (c : Dev nD) : W9 m ρ c (Proc.devRef .tc main_v13) = (dat0 (V8 m ρ) c).arrAt 3 cfg0.N :=
  W9_arr m ρ c 3

/-- What the second pallas_call finds in its three operand arrays. -/
theorem V13_v31 (c : Dev nD) : V13 m ρ c main_v31
    = pad S102400x64 ![0, 0] ![2400, 0] ![0, 0]
        (aggr64 (extractStridedSlice S100000x64 ![0, 0] ((dat0 (V8 m ρ) c).arrAt 3 cfg0.N) slices_S102400x64_S100000x64_0_0)
          (m ((c : Thread nD τ).loc main_arg1)) (m ((c : Thread nD τ).loc main_arg2))
          (degNorm (m ((c : Thread nD τ).loc main_arg2))) (m ((c : Thread nD τ).loc main_arg4)))
        zpad pads_S100000x64_S102400x64_024000_000 h_S_ := by
  show mid (W9 m ρ c) (Proc.devRef .tc main_v31) = _
  rw [mid_v31, W9_v13, W9_arg1, W9_arg2, W9_v10, W9_arg4]
theorem V13_v32 (c : Dev nD) : V13 m ρ c main_v32
    = pad S102400 ![0] ![2400] ![0] (degNorm (m ((c : Thread nD τ).loc main_arg1))) zpad pads_S100000_S102400_024000 h_S_ := by
  show mid (W9 m ρ c) (Proc.devRef .tc main_v32) = _
  rw [mid_v32, W9_v8]
theorem V13_arg5 (c : Dev nD) : V13 m ρ c main_arg5 = m ((c : Thread nD τ).loc main_arg5) := by
  show mid (W9 m ρ c) (Proc.devRef .tc main_arg5) = _
  rw [mid_arg5, W9_arg5]

/-- After the second pallas_call. -/
theorem W14_arg1 (c : Dev nD) : W14 m ρ c (Proc.devRef .tc main_arg1) = m ((c : Thread nD τ).loc main_arg1) :=
  (W14_of_ne m ρ c main_arg1 (by decide)).trans ((mid_arg1 (W9 m ρ c)).trans (W9_arg1 m ρ c))
theorem W14_arg2 (c : Dev nD) : W14 m ρ c (Proc.devRef .tc main_arg2) = m ((c : Thread nD τ).loc main_arg2) :=
  (W14_of_ne m ρ c main_arg2 (by decide)).trans ((mid_arg2 (W9 m ρ c)).trans (W9_arg2 m ρ c))
theorem W14_arg6 (c : Dev nD) : W14 m ρ c (Proc.devRef .tc main_arg6) = m ((c : Thread nD τ).loc main_arg6) :=
  (W14_of_ne m ρ c main_arg6 (by decide)).trans ((mid_arg6 (W9 m ρ c)).trans (W9_arg6 m ρ c))
theorem W14_v10 (c : Dev nD) : W14 m ρ c (Proc.devRef .tc main_v10) = degNorm (m ((c : Thread nD τ).loc main_arg2)) :=
  (W14_of_ne m ρ c main_v10 (by decide)).trans ((mid_v10 (W9 m ρ c)).trans (W9_v10 m ρ c))
theorem W14_v33 (c : Dev nD) : W14 m ρ c (Proc.devRef .tc main_v33) = (dat1 (V13 m ρ) c).arrAt 3 cfg1.N :=
  W14_arr m ρ c 3

/-- THE RESULT BUFFER after the last stretch: the width-40 aggregation of the second pallas_call's output array cut
    back to 100000 rows. -/
theorem W15_v50 (c : Dev nD) : W15 m ρ c (Proc.devRef .tc main_v50)
    = aggr40 (extractStridedSlice S100000x40 ![0, 0] ((dat1 (V13 m ρ) c).arrAt 3 cfg1.N) slices_S102400x40_S100000x40_0_0)
        (m ((c : Thread nD τ).loc main_arg1)) (m ((c : Thread nD τ).loc main_arg2))
        (degNorm (m ((c : Thread nD τ).loc main_arg2))) (m ((c : Thread nD τ).loc main_arg6)) := by
  show after hostOps2 (W14 m ρ c) (Proc.devRef .tc main_v50) = _
  rw [last_v50, W14_v33, W14_arg1, W14_arg2, W14_v10, W14_arg6]

end Cert.KernelIdeal.KFold

end
-- ==== Proof.LibPlainMatmul.lean ====
/-
  A general fact about the ideal reading of a matrix product, independent of any program: a kernel's matrix product of an
  m×k by a k×n matrix (no batch axis; the left operand's columns contracted with the right operand's rows) into a zero
  accumulator, read at the entry (a, b), is the textbook sum  Σ_c A(a, c) · B(c, b)  on the extended reals.
  (The host's `dot_general` of the same shape has this reading in the library already; this is its twin for the kernel's
  accumulate-into-zero form.)
-/
import Idealize.ShloMosaic.PureOps.Ideal.Laws
import Idealize.ShloMosaic.Lib.ValueIdx

noncomputable section

namespace Idealize.ShloMosaic.LibPlainMatmul

open Idealize.ShloMosaic Idealize.ShloMosaic.ValueIdx

/-- The plain product of an m×k by a k×n matrix accumulated into the f32 zero splat, at the ideal values and at the
    entry (a, b): the sum over the contracted coordinate c of A(a, c) · B(c, b). -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant (⟨2, ![m, n]⟩ : Shape) .f32 0x00000000#32) (ix2 a b)
      = ∑ c : Fin k, A (ix2 a c) * B (ix2 c b) := by
  show FloatOps.matmul (DotDims.plain m k n) prec A B (constant (⟨2, ![m, n]⟩ : Shape) .f32 0x00000000#32) (ix2 a b) = _
  rw [Ideal.matmul_constant_zero_apply, ← Equiv.sum_comp (contrEquiv1 (DotDims.plain m k n) k rfl rfl).symm]
  refine Finset.sum_congr rfl fun c _ => ?_
  have hc := contrEquiv1_symm_val (DotDims.plain m k n) k rfl rfl c
  -- the left operand is read at (a, c): its row is the output's row, its column the contracted coordinate
  have hl : (DotDims.plain m k n).lhsIdx (ix2 a b) ((contrEquiv1 _ k rfl rfl).symm c) = ix2 a c := by
    funext ax; apply Fin.ext
    match ax with
    | ⟨0, _⟩ => simp [DotDims.lhsIdx, DotDims.plain]; rfl
    | ⟨1, _⟩ => simp [DotDims.lhsIdx, DotDims.plain]; exact hc
  -- the right operand at (c, b): its row the contracted coordinate, its column the output's column
  have hr : (DotDims.plain m k n).rhsIdx (ix2 a b) ((contrEquiv1 _ k rfl rfl).symm c) = ix2 c b := by
    funext ax; apply Fin.ext
    match ax with
    | ⟨0, _⟩ => simp [DotDims.rhsIdx, DotDims.plain]; exact hc
    | ⟨1, _⟩ => simp [DotDims.rhsIdx, DotDims.plain]; rfl
  rw [hl, hr]

end Idealize.ShloMosaic.LibPlainMatmul

end
-- ==== Proof.LibLayoutCols.lean ====
/-
  General facts about layout operations read at an index, independent of any program, in the style of the library's
  own small-shape lemmas: the "keepdims" forms a row-wise reduction meets (a vector of row results made a column, the
  column copied across the row), a middle or leading unit axis added and then copied, a vector copied over two leading
  axes, and the cast that merges the two leading axes of a rank-3 array into one row axis. Each says which single entry
  of the operand an entry of the result is.
-/
import Idealize.ShloMosaic.Lib.Pipeline.Value
import Idealize.ShloMosaic.Lib.ValueIdx

noncomputable section

namespace Idealize.ShloMosaic.LibLayoutCols

open Idealize.ShloMosaic Idealize.ShloMosaic.ValueIdx

variable {α : Type}

/-! ## A vector as a column, and a column across its rows -/

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- So a vector of per-row values made a column and copied across the row reads, at `(p, c)`, the value of row `p`. -/
theorem broadcastTo_shapeCast_col_apply {a b : ℕ} (x : (⟨1, ![a]⟩ : Shape).Idx → α)
    (hc : (⟨1, ![a]⟩ : Shape).ShapeCasts ⟨2, ![a, 1]⟩) (hb : (⟨2, ![a, 1]⟩ : Shape).Broadcasts ⟨2, ![a, b]⟩)
    (p : Fin a) (c : Fin b) :
    broadcastTo ⟨2, ![a, b]⟩ (shapeCast ⟨2, ![a, 1]⟩ x hc) hb (ix2 p c) = x (ix1 p) :=
  (broadcastTo_a1_ab_apply _ hb p c).trans (shapeCast_a_a1_apply x hc p 0)

/-! ## A unit axis added in the middle or in front of a matrix, then copied -/

/-- An `[a, c]` array cast to `[a, 1, c]` reads, at `(r, u, j)`, the operand at `(r, j)`. -/
theorem shapeCast_ac_a1c_apply {a c : ℕ} (x : (⟨2, ![a, c]⟩ : Shape).Idx → α)
    (h : (⟨2, ![a, c]⟩ : Shape).ShapeCasts ⟨3, ![a, 1, c]⟩) (r : Fin a) (u : Fin 1) (j : Fin c) :
    shapeCast ⟨3, ![a, 1, c]⟩ x h (ix3 r u j) = x (ix2 r j) :=
  shapeCast_apply x h _ _ (by
    have hu : u.val = 0 := by omega
    rw [Shape.rowMajor_val_three, Shape.rowMajor_val_two]
    show r.val * c + j.val = (r.val * 1 + u.val) * c + j.val
    rw [hu, Nat.mul_one, Nat.add_zero])

/-- An `[a, 1, c]` array broadcast to `[a, b, c]` reads, at `(r, u, j)`, the operand at `(r, 0, j)`. -/
theorem broadcastTo_a1c_abc_apply {a b c : ℕ} (v : (⟨3, ![a, 1, c]⟩ : Shape).Idx → α)
    (h : (⟨3, ![a, 1, c]⟩ : Shape).Broadcasts ⟨3, ![a, b, c]⟩) (r : Fin a) (u : Fin b) (j : Fin c) :
    broadcastTo ⟨3, ![a, b, c]⟩ v h (ix3 r u j) = v (ix3 r (0 : Fin 1) j) := by
  refine broadcastTo_apply v h (ix3 r u j) (ix3 r (0 : Fin 1) j) fun ax => ?_
  match ax with
  | ⟨0, _⟩ =>
    show r.val = if a = 1 then 0 else r.val
    split
    · have := r.isLt; omega
    · rfl
  | ⟨1, _⟩ => rfl
  | ⟨2, _⟩ =>
    show j.val = if c = 1 then 0 else j.val
    split
    · have := j.isLt; omega
    · rfl

/-- A `[1, b, c]` array broadcast to `[a, b, c]` reads, at `(r, u, j)`, the operand at `(0, u, j)`. -/
theorem broadcastTo_1bc_abc_apply {a b c : ℕ} (v : (⟨3, ![1, b, c]⟩ : Shape).Idx → α)
    (h : (⟨3, ![1, b, c]⟩ : Shape).Broadcasts ⟨3, ![a, b, c]⟩) (r : Fin a) (u : Fin b) (j : Fin c) :
    broadcastTo ⟨3, ![a, b, c]⟩ v h (ix3 r u j) = v (ix3 (0 : Fin 1) u j) := by
  refine broadcastTo_apply v h (ix3 r u j) (ix3 (0 : Fin 1) u j) fun ax => ?_
  match ax with
  | ⟨0, _⟩ => rfl
  | ⟨1, _⟩ =>
    show u.val = if b = 1 then 0 else u.val
    split
    · have := u.isLt; omega
    · rfl
  | ⟨2, _⟩ =>
    show j.val = if c = 1 then 0 else j.val
    split
    · have := j.isLt; omega
    · rfl

/-! ## A vector copied over two leading axes -/

/-- A `[c]` array cast to `[1, 1, c]` reads, at `(u, w, j)`, the operand at `j`. -/
theorem shapeCast_c_11c_apply {c : ℕ} (x : (⟨1, ![c]⟩ : Shape).Idx → α)
    (h : (⟨1, ![c]⟩ : Shape).ShapeCasts ⟨3, ![1, 1, c]⟩) (u w : Fin 1) (j : Fin c) :
    shapeCast ⟨3, ![1, 1, c]⟩ x h (ix3 u w j) = x (ix1 j) :=
  shapeCast_apply x h _ _ (by
    have hu : u.val = 0 := by omega
    have hw : w.val = 0 := by omega
    rw [Shape.rowMajor_val_three, Shape.rowMajor_val_one]
    show j.val = (u.val * 1 + w.val) * c + j.val
    simp only [hu, hw, Nat.zero_mul, Nat.add_zero, Nat.zero_add])

/-- A `[1, 1, c]` array broadcast to `[a, b, c]` reads, at `(r, u, j)`, the operand at `(0, 0, j)`. -/
theorem broadcastTo_11c_abc_apply {a b c : ℕ} (v : (⟨3, ![1, 1, c]⟩ : Shape).Idx → α)
    (h : (⟨3, ![1, 1, c]⟩ : Shape).Broadcasts ⟨3, ![a, b, c]⟩) (r : Fin a) (u : Fin b) (j : Fin c) :
    broadcastTo ⟨3, ![a, b, c]⟩ v h (ix3 r u j) = v (ix3 (0 : Fin 1) (0 : Fin 1) j) := by
  refine broadcastTo_apply v h (ix3 r u j) (ix3 (0 : Fin 1) (0 : Fin 1) j) fun ax => ?_
  match ax with
  | ⟨0, _⟩ => rfl
  | ⟨1, _⟩ => rfl
  | ⟨2, _⟩ =>
    show j.val = if c = 1 then 0 else j.val
    split
    · have := j.isLt; omega
    · rfl

/-! ## The two leading axes of a rank-3 array merged into one row axis -/

/-- An `[a, b, c]` array cast to `[n, c]` (so `n = a·b`) reads, at row `p = r·b + u` and column `j`, the operand at
    `(r, u, j)`: the row-major position is the same. -/
theorem shapeCast_abc_nc_apply {a b c n : ℕ} (x : (⟨3, ![a, b, c]⟩ : Shape).Idx → α)
    (h : (⟨3, ![a, b, c]⟩ : Shape).ShapeCasts ⟨2, ![n, c]⟩) (r : Fin a) (u : Fin b) (p : Fin n)
    (hp : p.val = r.val * b + u.val) (j : Fin c) :
    shapeCast ⟨2, ![n, c]⟩ x h (ix2 p j) = x (ix3 r u j) :=
  shapeCast_apply x h _ _ (by
    rw [Shape.rowMajor_val_three, Shape.rowMajor_val_two]
    show (r.val * b + u.val) * c + j.val = p.val * c + j.val
    rw [hp])

end Idealize.ShloMosaic.LibLayoutCols

end
-- ==== Proof.LibScaleMatmul.lean ====
/-
  General facts, independent of any program, about one dense layer "scale every row, then multiply":
  for an m×k matrix X, a length-m vector S of per-row factors and a k×n matrix W, the m×n array whose entry (a, b) is
      Σ_c (X(a, c) · S(a)) · W(c, b)
  on the extended reals. Three readings of it: a kernel body (the factor made a column and copied across the row, the
  product cast to a narrower float format, which at the ideal values changes nothing, a matrix product into a zero
  accumulator); the host's form (two broadcasts, a product, a dot_general); and the fact that padding X and S with extra
  rows below and cutting the result back to the first m rows changes nothing, since a row of the result depends on that
  row of X and S only.
-/
import Idealize.ShloMosaic.PureOps.Ideal.Laws
import Idealize.ShloMosaic.Lib.ValueIdx
import Idealize.ShloMosaic.Lib.Pipeline.Value
import Idealize.ShloMosaic.Lib.KernelVsHost
import Idealize.ShloMosaic.Lib.StackMember
import proofs.«127029_j18047452578197_1_alg».proof.Proof.LibPlainMatmul
import proofs.«127029_j18047452578197_1_alg».proof.Proof.LibLayoutCols

noncomputable section

namespace Idealize.ShloMosaic.LibScaleMatmul

open Idealize.ShloMosaic Idealize.ShloMosaic.ValueIdx

/-- Rows scaled, then multiplied: entry (a, b) is Σ_c (X(a, c) · S(a)) · W(c, b). -/
def scaleRows {m k n : Nat} (X : FVec Ideal ⟨2, ![m, k]⟩ .f32) (S : FVec Ideal ⟨1, ![m]⟩ .f32)
    (W : FVec Ideal ⟨2, ![k, n]⟩ .f32) : FVec Ideal ⟨2, ![m, n]⟩ .f32 :=
  fun i => ∑ c : Fin k, (X (ix2 (i 0) c) * S (ix1 (i 0))) * W (ix2 c (i 1))

theorem scaleRows_apply {m k n : Nat} (X : FVec Ideal ⟨2, ![m, k]⟩ .f32) (S : FVec Ideal ⟨1, ![m]⟩ .f32)
    (W : FVec Ideal ⟨2, ![k, n]⟩ .f32) (a : Fin m) (b : Fin n) :
    scaleRows X S W (ix2 a b) = ∑ c : Fin k, (X (ix2 a c) * S (ix1 a)) * W (ix2 c b) := rfl

/-- The kernel body's form: the factors as a column copied across the row, the product and the weights cast to bf16
    (the identity at the ideal values), a matrix product into the zero accumulator. -/
theorem body_eq_scaleRows {m k n : Nat} (x : FVec Ideal ⟨2, ![m, k]⟩ .f32) (s : FVec Ideal ⟨1, ![m]⟩ .f32)
    (w : FVec Ideal ⟨2, ![k, n]⟩ .f32)
    (h0 : (⟨2, ![m, k]⟩ : Shape).ShapeCasts ⟨2, ![m, k]⟩) (h1 : (⟨1, ![m]⟩ : Shape).ShapeCasts ⟨1, ![m]⟩)
    (h2 : (⟨1, ![m]⟩ : Shape).ShapeCasts ⟨2, ![m, 1]⟩) (hb : (⟨2, ![m, 1]⟩ : Shape).Broadcasts ⟨2, ![m, k]⟩)
    (hlt : FTy.bits .bf16 < FTy.bits .f32) :
    matmul (DotDims.plain m k n) none
        (truncf .bf16 (mulf (shapeCast ⟨2, ![m, k]⟩ x h0)
          (broadcastTo ⟨2, ![m, k]⟩ (shapeCast ⟨2, ![m, 1]⟩ (shapeCast ⟨1, ![m]⟩ s h1) h2) hb)) hlt)
        (truncf .bf16 w hlt) (constant (⟨2, ![m, n]⟩ : Shape) .f32 0x00000000#32)
      = scaleRows x s w := by
  funext i
  obtain ⟨a, b, rfl⟩ : ∃ (a : Fin m) (b : Fin n), i = ix2 a b := ⟨i 0, i 1, eq_ix2 i⟩
  -- the product into the zero accumulator at (a, b) is Σ_c (left factor at (a, c)) · (right factor at (c, b))
  rw [LibPlainMatmul.matmul_plain_zero_apply, scaleRows_apply]
  refine Finset.sum_congr rfl fun c _ => ?_
  -- the casts to the narrower format and to the same shape change nothing; the column copied across the row reads s(a)
  rw [truncf_apply, truncf_apply, mulf_apply, shapeCast_self, shapeCast_self,
    LibLayoutCols.broadcastTo_shapeCast_col_apply]

/-- A vector made a column by a broadcast along axis 0 and then copied across the row by a broadcast along both axes
    reads, at (a, c), the vector's entry a. -/
private theorem bcast_col_row_apply {m k : Nat} {α : Type} (S : (⟨1, ![m]⟩ : Shape).Idx → α)
    (hb1 : (⟨1, ![m]⟩ : Shape).BroadcastsInDim ⟨2, ![m, 1]⟩ (![0] : Fin 1 → Fin 2))
    (hb2 : (⟨2, ![m, 1]⟩ : Shape).BroadcastsInDim ⟨2, ![m, k]⟩ (![0, 1] : Fin 2 → Fin 2)) (a : Fin m) (c : Fin k) :
    broadcastInDim ⟨2, ![m, k]⟩ ![0, 1] hb2 (broadcastInDim ⟨2, ![m, 1]⟩ ![0] hb1 S) (ix2 a c) = S (ix1 a) := by
  -- the outer copy reads the column at (a, 0): the row axis is kept (or has one entry only), the unit axis reads 0
  refine (broadcastInDim_apply (![0, 1] : Fin 2 → Fin 2) hb2 _ (ix2 a c) (ix2 a (0 : Fin 1)) fun ax => ?_).trans ?_
  · match ax with
    | ⟨0, _⟩ =>
      show a.val = if m = 1 then 0 else a.val
      split
      · have := a.isLt; omega
      · rfl
    | ⟨1, _⟩ => rfl
  -- the column at (a, 0) is the vector at a
  · refine broadcastInDim_apply (![0] : Fin 1 → Fin 2) hb1 S (ix2 a (0 : Fin 1)) (ix1 a) fun ax => ?_
    match ax with
    | ⟨0, _⟩ =>
      show a.val = if m = 1 then 0 else a.val
      split
      · have := a.isLt; omega
      · rfl

/-- The host's form: the factors broadcast to a column and then across the row, a product, a dot_general. -/
theorem hostDot_eq_scaleRows {m k n : Nat} (X : FVec Ideal ⟨2, ![m, k]⟩ .f32) (S : FVec Ideal ⟨1, ![m]⟩ .f32)
    (W : FVec Ideal ⟨2, ![k, n]⟩ .f32)
    (hb1 : (⟨1, ![m]⟩ : Shape).BroadcastsInDim ⟨2, ![m, 1]⟩ (![0] : Fin 1 → Fin 2))
    (hb2 : (⟨2, ![m, 1]⟩ : Shape).BroadcastsInDim ⟨2, ![m, k]⟩ (![0, 1] : Fin 2 → Fin 2)) :
    Host.dotGeneral (DotDims.plain m k n) none
        (mulf X (broadcastInDim ⟨2, ![m, k]⟩ ![0, 1] hb2 (broadcastInDim ⟨2, ![m, 1]⟩ ![0] hb1 S))) W
      = scaleRows X S W := by
  funext i
  obtain ⟨a, b, rfl⟩ : ∃ (a : Fin m) (b : Fin n), i = ix2 a b := ⟨i 0, i 1, eq_ix2 i⟩
  -- the plain dot_general at (a, b) is Σ_c (left factor at (a, c)) · W(c, b); the left factor is X(a, c) · S(a)
  rw [StackMember.dotGeneral_plain_apply, scaleRows_apply]
  refine Finset.sum_congr rfl fun c _ => ?_
  rw [mulf_apply, bcast_col_row_apply]

/-- Extra rows below do not matter: X and S padded with p rows (of any values z, z'), scaled and multiplied, and the
    result cut back to its first m rows, is X and S scaled and multiplied. -/
theorem slice_scaleRows_pad {m M k n p : Nat} (hM : m ≤ M)
    (X : FVec Ideal ⟨2, ![m, k]⟩ .f32) (S : FVec Ideal ⟨1, ![m]⟩ .f32) (W : FVec Ideal ⟨2, ![k, n]⟩ .f32)
    (z z' : FVec Ideal ⟨0, ![]⟩ .f32)
    (hpX : (⟨2, ![m, k]⟩ : Shape).Pads (![0, 0] : Fin 2 → Nat) ![p, 0] ![0, 0] ⟨2, ![M, k]⟩)
    (hpS : (⟨1, ![m]⟩ : Shape).Pads (![0] : Fin 1 → Nat) ![p] ![0] ⟨1, ![M]⟩)
    (hu : 0 < (⟨0, ![]⟩ : Shape).numel)
    (hs : (⟨2, ![M, n]⟩ : Shape).Slices ![0, 0] ⟨2, ![m, n]⟩) :
    extractStridedSlice ⟨2, ![m, n]⟩ ![0, 0]
        (scaleRows (pad ⟨2, ![M, k]⟩ ![0, 0] ![p, 0] ![0, 0] X z hpX hu) (pad ⟨1, ![M]⟩ ![0] ![p] ![0] S z' hpS hu) W) hs
      = scaleRows X S W := by
  funext i
  obtain ⟨a, b, rfl⟩ : ∃ (a : Fin m) (b : Fin n), i = ix2 a b := ⟨i 0, i 1, eq_ix2 i⟩
  -- row a of the cut is row a of the big array (the cut starts at the origin)
  have haM : a.val < M := lt_of_lt_of_le a.isLt hM
  refine (extractStridedSlice_apply (![0, 0] : Fin 2 → Nat) _ hs (ix2 a b) (ix2 (⟨a.val, haM⟩ : Fin M) b) fun ax => ?_).trans ?_
  · match ax with
    | ⟨0, _⟩ => exact (Nat.zero_add _).symm
    | ⟨1, _⟩ => exact (Nat.zero_add _).symm
  rw [scaleRows_apply, scaleRows_apply]
  refine Finset.sum_congr rfl fun c _ => ?_
  -- row a < m of a padded operand lies inside the operand: no padding in front of it and none between entries
  have hX : pad ⟨2, ![M, k]⟩ ![0, 0] ![p, 0] ![0, 0] X z hpX hu (ix2 (⟨a.val, haM⟩ : Fin M) c) = X (ix2 a c) := by
    refine pad_apply_of_inside (![0, 0] : Fin 2 → Nat) ![p, 0] ![0, 0] X z hpX hu (ix2 (⟨a.val, haM⟩ : Fin M) c) (ix2 a c) fun ax => ?_
    match ax with
    | ⟨0, _⟩ => show a.val = 0 + a.val * (0 + 1); omega
    | ⟨1, _⟩ => show c.val = 0 + c.val * (0 + 1); omega
  have hS : pad ⟨1, ![M]⟩ ![0] ![p] ![0] S z' hpS hu (ix1 (⟨a.val, haM⟩ : Fin M)) = S (ix1 a) := by
    refine pad_apply_of_inside (![0] : Fin 1 → Nat) ![p] ![0] S z' hpS hu (ix1 (⟨a.val, haM⟩ : Fin M)) (ix1 a) fun ax => ?_
    match ax with
    | ⟨0, _⟩ => show a.val = 0 + a.val * (0 + 1); omega
  rw [hX, hS]

end Idealize.ShloMosaic.LibScaleMatmul

end
-- ==== Proof.RegionValue0.lean ====
/-
  What the first dense layer's pallas_call leaves in its output array, as one function of the arrays it reads: with the
  102400 rows cut into 25 blocks of 4096, grid point t multiplies block t of the (row-scaled) left operand by the whole
  weight matrix and writes block t of the result; the blocks tile the array, so the array ends holding rows-scaled-then-
  multiplied of the three arrays as the region finds them.
-/
import proofs.«127029_j18047452578197_1_alg».proof.Proof.Gen.KernelIdeal.Frame
import proofs.«127029_j18047452578197_1_alg».proof.Proof.LibScaleMatmul
import Idealize.ShloMosaic.Lib.Pipeline.Value
import Idealize.ShloMosaic.Lib.ValueIdx

set_option maxRecDepth 16384

noncomputable section

namespace Cert.KernelIdeal.RegionValue0

open Cert.KernelIdeal Cert.KernelIdeal.Gen Idealize.ShloMosaic Idealize.ShloMosaic.TcCoe Idealize.SL.Sem
open Idealize.ShloMosaic.ValueIdx Idealize.ShloMosaic.LibScaleMatmul
open Idealize.ShloMosaic.Pipeline (Dat)

variable (V : (c : Dev nD) → (b : Ref sig .tc) → Buf (Elt Ideal) ((c : Thread nD τ).loc b))

/-- The zero offsets of a rank-2 access, as the constant function. -/
private theorem zero_offsets2 : (![0, 0] : Fin 2 → Nat) = fun _ => 0 := funext fun a => by fin_cases a <;> rfl
/-- The zero offset of a rank-1 access, as the constant function. -/
private theorem zero_offsets1 : (![0] : Fin 1 → Nat) = fun _ => 0 := funext fun a => by fin_cases a; rfl

/-- The body's arithmetic on one point's blocks is rows-scaled-then-multiplied of those blocks: a 4096×256 block of the
    left operand, its 4096 row factors, the 256×64 weights. -/
private theorem payload_eq (x0 : Vec Ideal S4096x256 .f32) (x1 : Vec Ideal S4096 .f32) (x2 : Vec Ideal S256x64 .f32) :
    k0_pay1 (F := Ideal) x0 x1 x2 = scaleRows (m := 4096) (k := 256) (n := 64) x0 x1 x2 := by
  unfold k0_pay1
  exact body_eq_scaleRows (m := 4096) (k := 256) (n := 64) x0 x1 x2 _ _ _ _ _

/-- The index maps over the 25 grid points: point t reads row block t of the left operand and of the row factors,
    the weights whole, and writes row block t of the result; every column block index is 0. -/
private theorem index_facts : ∀ t : Fin cfg0.N,
    win0_0.index t (0 : Fin 2) = t.val ∧ win0_0.index t (1 : Fin 2) = 0
    ∧ win0_1.index t (0 : Fin 1) = t.val
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- A row of the result depends on that row of the left operand and its factor only: if row a of a 4096-row block
    (x0, x1) is row r of the 102400-row arrays (X, S), and the weights agree on column b, then entry (a, b) of the
    block's result is entry (r, b) of the arrays' result. -/
private theorem scaleRows_row_congr (X : FVec Ideal S102400x256 .f32) (S : FVec Ideal S102400 .f32) (W : FVec Ideal S256x64 .f32)
    (x0 : FVec Ideal S4096x256 .f32) (x1 : FVec Ideal S4096 .f32) (x2 : FVec Ideal S256x64 .f32)
    (a : Fin 4096) (b : Fin 64) (r : Fin 102400)
    (h0 : ∀ k : Fin 256, x0 (ix2 a k) = X (ix2 r k)) (h1 : x1 (ix1 a) = S (ix1 r))
    (h2 : ∀ k : Fin 256, x2 (ix2 k b) = W (ix2 k b)) :
    scaleRows (m := 4096) (k := 256) (n := 64) x0 x1 x2 (ix2 a b)
      = scaleRows (m := 102400) (k := 256) (n := 64) X S W (ix2 r b) := by
  rw [scaleRows_apply, scaleRows_apply]
  exact Finset.sum_congr rfl fun k _ => by rw [h0 k, h1, h2 k]

/-- The left operand's block at point t: its entry (a, k) is entry (4096·t + a, k) of the array. -/
private theorem blk0_apply (c : Dev nD) (t : Fin cfg0.N) (a : Fin 4096) (k : Fin 256) (r : Fin 102400)
    (hr : r.val = t.val * 4096 + a.val) :
    (iblk0 V c 0 t : Vec Ideal S4096x256 .f32) (ix2 a k) = (V c main_v11 : S102400x256.Idx → Elt Ideal .f32) (ix2 r k) := by
  obtain ⟨e0, e1, -⟩ := index_facts t
  unfold iblk0
  rw [View.read_apply]
  show V c main_v11 _ = V c main_v11 _
  congr 1
  funext d
  apply Fin.ext
  match d with
  | ⟨0, _⟩ => show win0_0.index t (0 : Fin 2) * 4096 + 1 * a.val = r.val; rw [e0, hr]; omega
  | ⟨1, _⟩ => show win0_0.index t (1 : Fin 2) * 256 + 1 * k.val = k.val; rw [e1]; omega

/-- The row factors' block at point t: its entry a is entry 4096·t + a of the array. -/
private theorem blk1_apply (c : Dev nD) (t : Fin cfg0.N) (a : Fin 4096) (r : Fin 102400)
    (hr : r.val = t.val * 4096 + a.val) :
    (iblk0 V c 1 t : Vec Ideal S4096 .f32) (ix1 a) = (V c main_v12 : S102400.Idx → Elt Ideal .f32) (ix1 r) := by
  obtain ⟨-, -, e2, -⟩ := index_facts t
  unfold iblk0
  rw [View.read_apply]
  show V c main_v12 _ = V c main_v12 _
  congr 1
  funext d
  apply Fin.ext
  match d with
  | ⟨0, _⟩ => show win0_1.index t (0 : Fin 1) * 4096 + 1 * a.val = r.val; rw [e2, hr]; omega

/-- The weights' block at every point is the whole weight matrix. -/
private theorem blk2_apply (c : Dev nD) (t : Fin cfg0.N) (k : Fin 256) (b : Fin 64) :
    (iblk0 V c 2 t : Vec Ideal S256x64 .f32) (ix2 k b) = (V c main_arg3 : S256x64.Idx → Elt Ideal .f32) (ix2 k b) := by
  obtain ⟨-, -, -, e3, e4, -⟩ := index_facts t
  unfold iblk0
  rw [View.read_apply]
  show V c main_arg3 _ = V c main_arg3 _
  congr 1
  funext d
  apply Fin.ext
  match d with
  | ⟨0, _⟩ => show win0_2.index t (0 : Fin 2) * 256 + 1 * k.val = k.val; rw [e3]; omega
  | ⟨1, _⟩ => show win0_2.index t (1 : Fin 2) * 64 + 1 * b.val = b.val; rw [e4]; omega

/-- What point t writes back is row block t of rows-scaled-then-multiplied of the three arrays: the one store leaves the
    body's arithmetic of the point's blocks, whose entry (a, b) is entry (4096·t + a, b) of the arrays' result, a row of
    the result depending on that row of the operands only. -/
private theorem flushed_eq (c : Dev nD) (t : Fin cfg0.N) :
    (dat0 (F := Ideal) V c).flushed 3 t = ((cfg0.win 3).blk t).view.read (Elt Ideal)
      (scaleRows (m := 102400) (k := 256) (n := 64) (V c main_v11) (V c main_v12) (V c main_arg3)) := by
  show (cfg0.win 3).cut (grid0.coords t) ((dat0 (F := Ideal) V c).after 3 t) = _
  rw [after0_3]
  unfold out0_3
  rw [View.canon_unit_zero zero_offsets2]
  simp only [View.ld_unit_zero (S := S4096x256) zero_offsets2, View.ld_unit_zero (S := S4096) zero_offsets1, View.ld_unit_zero (S := S256x64) zero_offsets2]
  rw [payload_eq]
  funext j
  obtain ⟨-, -, -, -, -, e5, e6⟩ := index_facts t
  have ht : t.val < 25 := lt_of_lt_of_eq t.isLt N_0
  have hj0 : (j 0).val < 4096 := (j 0).isLt
  have hr : t.val * 4096 + (j 0).val < 102400 := by omega
  have hemb : ((cfg0.win 3).blk t).view.emb j = (ix2 (⟨t.val * 4096 + (j 0).val, hr⟩ : Fin 102400) (j 1) : S102400x64.Idx) := by
    funext d
    apply Fin.ext
    match d with
    | ⟨0, _⟩ => show win0_3.index t (0 : Fin 2) * 4096 + 1 * (j 0).val = t.val * 4096 + (j 0).val; rw [e5]; omega
    | ⟨1, _⟩ => show win0_3.index t (1 : Fin 2) * 64 + 1 * (j 1).val = (j 1).val; rw [e6]; omega
  show scaleRows (m := 4096) (k := 256) (n := 64) (iblk0 V c 0 t) (iblk0 V c 1 t) (iblk0 V c 2 t) (ix2 (j 0) (j 1))
      = scaleRows (m := 102400) (k := 256) (n := 64) (V c main_v11) (V c main_v12) (V c main_arg3) (((cfg0.win 3).blk t).view.emb j)
  rw [hemb]
  exact scaleRows_row_congr _ _ _ _ _ _ (j 0) (j 1) ⟨t.val * 4096 + (j 0).val, hr⟩
    (fun k => blk0_apply V c t (j 0) k _ rfl) (blk1_apply V c t (j 0) _ rfl) (fun k => blk2_apply V c t k (j 1))

/-- An index of the result array is in point t's block iff each coordinate is in the block's range on its axis. -/
private theorem mem_blk (t : Fin cfg0.N) (i : S102400x64.Idx) :
    i ∈ ((cfg0.win 3).blk t).view.set ↔ ∀ a : Fin 2, win0_3.index t a * S4096x64.size a ≤ (i a).val ∧ (i a).val < win0_3.index t a * S4096x64.size a + S4096x64.size a := by
  show i ∈ ((View.whole main_v13).slice (win0_3.rect t)).set ↔ _
  rw [View.set_slice_whole, Rect.mem_set_unit]
  exact Iff.rfl

/-- The 25 row blocks of 4096 tile the 102400 rows: row r is in the block of point r / 4096, which writes back. -/
private theorem cover (i : S102400x64.Idx) :
    ∃ t : Fin cfg0.N, (cfg0.win 3).flush t = true ∧ i ∈ ((cfg0.win 3).blk t).view.set := by
  have hi0 : (i 0).val < 102400 := (i 0).isLt
  have hi1 : (i 1).val < 64 := (i 1).isLt
  have hN : cfg0.N = 25 := N_0
  have hq : (i 0).val / 4096 < cfg0.N := by rw [hN]; omega
  refine ⟨⟨(i 0).val / 4096, hq⟩, flush0_3 _, ?_⟩
  obtain ⟨-, -, -, -, -, e5, e6⟩ := index_facts ⟨(i 0).val / 4096, hq⟩
  rw [mem_blk]
  intro a
  match a with
  | ⟨0, _⟩ => show win0_3.index ⟨(i 0).val / 4096, hq⟩ (0 : Fin 2) * 4096 ≤ (i 0).val ∧ (i 0).val < win0_3.index ⟨(i 0).val / 4096, hq⟩ (0 : Fin 2) * 4096 + 4096; rw [e5]; show (i 0).val / 4096 * 4096 ≤ (i 0).val ∧ (i 0).val < (i 0).val / 4096 * 4096 + 4096; omega
  | ⟨1, _⟩ => show win0_3.index ⟨(i 0).val / 4096, hq⟩ (1 : Fin 2) * 64 ≤ (i 1).val ∧ (i 1).val < win0_3.index ⟨(i 0).val / 4096, hq⟩ (1 : Fin 2) * 64 + 64; rw [e6]; omega

/-- The output array of the first pallas_call after its run: rows scaled, then multiplied, of the padded features,
    the padded row factors and the first weight matrix as the region finds them. -/
theorem arrAt0_eq (c : Dev nD) :
    (dat0 (F := Ideal) V c).arrAt 3 cfg0.N
      = scaleRows (m := 102400) (k := 256) (n := 64) (V c main_v11) (V c main_v12) (V c main_arg3) :=
  (dat0 (F := Ideal) V c).arrAt_eq_of_cover 3 _ (fun t _ => flushed_eq V c t) cover

end Cert.KernelIdeal.RegionValue0

end
-- ==== Proof.RegionValue1.lean ====
/-
  What the second dense layer's pallas_call leaves in its output array, as one function of the arrays it reads: with the
  102400 rows cut into 25 blocks of 4096, grid point t multiplies block t of the (row-scaled) left operand by the whole
  weight matrix and writes block t of the result; the blocks tile the array, so the array ends holding rows-scaled-then-
  multiplied of the three arrays as the region finds them.
-/
import proofs.«127029_j18047452578197_1_alg».proof.Proof.Gen.KernelIdeal.Frame
import proofs.«127029_j18047452578197_1_alg».proof.Proof.LibScaleMatmul
import Idealize.ShloMosaic.Lib.Pipeline.Value
import Idealize.ShloMosaic.Lib.ValueIdx

set_option maxRecDepth 16384

noncomputable section

namespace Cert.KernelIdeal.RegionValue1

open Cert.KernelIdeal Cert.KernelIdeal.Gen Idealize.ShloMosaic Idealize.ShloMosaic.TcCoe Idealize.SL.Sem
open Idealize.ShloMosaic.ValueIdx Idealize.ShloMosaic.LibScaleMatmul
open Idealize.ShloMosaic.Pipeline (Dat)

variable (V : (c : Dev nD) → (b : Ref sig .tc) → Buf (Elt Ideal) ((c : Thread nD τ).loc b))

/-- The zero offsets of a rank-2 access, as the constant function. -/
private theorem zero_offsets2 : (![0, 0] : Fin 2 → Nat) = fun _ => 0 := funext fun a => by fin_cases a <;> rfl
/-- The zero offset of a rank-1 access, as the constant function. -/
private theorem zero_offsets1 : (![0] : Fin 1 → Nat) = fun _ => 0 := funext fun a => by fin_cases a; rfl

/-- The body's arithmetic on one point's blocks is rows-scaled-then-multiplied of those blocks: a 4096×64 block of the
    left operand, its 4096 row factors, the 64×40 weights. -/
private theorem payload_eq (x0 : Vec Ideal S4096x64 .f32) (x1 : Vec Ideal S4096 .f32) (x2 : Vec Ideal S64x40 .f32) :
    k1_pay1 (F := Ideal) x0 x1 x2 = scaleRows (m := 4096) (k := 64) (n := 40) x0 x1 x2 := by
  unfold k1_pay1
  exact body_eq_scaleRows (m := 4096) (k := 64) (n := 40) x0 x1 x2 _ _ _ _ _

/-- The index maps over the 25 grid points: point t reads row block t of the left operand and of the row factors,
    the weights whole, and writes row block t of the result; every column block index is 0. -/
private theorem index_facts : ∀ t : Fin cfg1.N,
    win1_0.index t (0 : Fin 2) = t.val ∧ win1_0.index t (1 : Fin 2) = 0
    ∧ win1_1.index t (0 : Fin 1) = t.val
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- A row of the result depends on that row of the left operand and its factor only: if row a of a 4096-row block
    (x0, x1) is row r of the 102400-row arrays (X, S), and the weights agree on column b, then entry (a, b) of the
    block's result is entry (r, b) of the arrays' result. -/
private theorem scaleRows_row_congr (X : FVec Ideal S102400x64 .f32) (S : FVec Ideal S102400 .f32) (W : FVec Ideal S64x40 .f32)
    (x0 : FVec Ideal S4096x64 .f32) (x1 : FVec Ideal S4096 .f32) (x2 : FVec Ideal S64x40 .f32)
    (a : Fin 4096) (b : Fin 40) (r : Fin 102400)
    (h0 : ∀ k : Fin 64, x0 (ix2 a k) = X (ix2 r k)) (h1 : x1 (ix1 a) = S (ix1 r))
    (h2 : ∀ k : Fin 64, x2 (ix2 k b) = W (ix2 k b)) :
    scaleRows (m := 4096) (k := 64) (n := 40) x0 x1 x2 (ix2 a b)
      = scaleRows (m := 102400) (k := 64) (n := 40) X S W (ix2 r b) := by
  rw [scaleRows_apply, scaleRows_apply]
  exact Finset.sum_congr rfl fun k _ => by rw [h0 k, h1, h2 k]

/-- The left operand's block at point t: its entry (a, k) is entry (4096·t + a, k) of the array. -/
private theorem blk0_apply (c : Dev nD) (t : Fin cfg1.N) (a : Fin 4096) (k : Fin 64) (r : Fin 102400)
    (hr : r.val = t.val * 4096 + a.val) :
    (iblk1 V c 0 t : Vec Ideal S4096x64 .f32) (ix2 a k) = (V c main_v31 : S102400x64.Idx → Elt Ideal .f32) (ix2 r k) := by
  obtain ⟨e0, e1, -⟩ := index_facts t
  unfold iblk1
  rw [View.read_apply]
  show V c main_v31 _ = V c main_v31 _
  congr 1
  funext d
  apply Fin.ext
  match d with
  | ⟨0, _⟩ => show win1_0.index t (0 : Fin 2) * 4096 + 1 * a.val = r.val; rw [e0, hr]; omega
  | ⟨1, _⟩ => show win1_0.index t (1 : Fin 2) * 64 + 1 * k.val = k.val; rw [e1]; omega

/-- The row factors' block at point t: its entry a is entry 4096·t + a of the array. -/
private theorem blk1_apply (c : Dev nD) (t : Fin cfg1.N) (a : Fin 4096) (r : Fin 102400)
    (hr : r.val = t.val * 4096 + a.val) :
    (iblk1 V c 1 t : Vec Ideal S4096 .f32) (ix1 a) = (V c main_v32 : S102400.Idx → Elt Ideal .f32) (ix1 r) := by
  obtain ⟨-, -, e2, -⟩ := index_facts t
  unfold iblk1
  rw [View.read_apply]
  show V c main_v32 _ = V c main_v32 _
  congr 1
  funext d
  apply Fin.ext
  match d with
  | ⟨0, _⟩ => show win1_1.index t (0 : Fin 1) * 4096 + 1 * a.val = r.val; rw [e2, hr]; omega

/-- The weights' block at every point is the whole weight matrix. -/
private theorem blk2_apply (c : Dev nD) (t : Fin cfg1.N) (k : Fin 64) (b : Fin 40) :
    (iblk1 V c 2 t : Vec Ideal S64x40 .f32) (ix2 k b) = (V c main_arg5 : S64x40.Idx → Elt Ideal .f32) (ix2 k b) := by
  obtain ⟨-, -, -, e3, e4, -⟩ := index_facts t
  unfold iblk1
  rw [View.read_apply]
  show V c main_arg5 _ = V c main_arg5 _
  congr 1
  funext d
  apply Fin.ext
  match d with
  | ⟨0, _⟩ => show win1_2.index t (0 : Fin 2) * 64 + 1 * k.val = k.val; rw [e3]; omega
  | ⟨1, _⟩ => show win1_2.index t (1 : Fin 2) * 40 + 1 * b.val = b.val; rw [e4]; omega

/-- What point t writes back is row block t of rows-scaled-then-multiplied of the three arrays: the one store leaves the
    body's arithmetic of the point's blocks, whose entry (a, b) is entry (4096·t + a, b) of the arrays' result, a row of
    the result depending on that row of the operands only. -/
private theorem flushed_eq (c : Dev nD) (t : Fin cfg1.N) :
    (dat1 (F := Ideal) V c).flushed 3 t = ((cfg1.win 3).blk t).view.read (Elt Ideal)
      (scaleRows (m := 102400) (k := 64) (n := 40) (V c main_v31) (V c main_v32) (V c main_arg5)) := by
  show (cfg1.win 3).cut (grid1.coords t) ((dat1 (F := Ideal) V c).after 3 t) = _
  rw [after1_3]
  unfold out1_3
  rw [View.canon_unit_zero zero_offsets2]
  simp only [View.ld_unit_zero (S := S4096x64) zero_offsets2, View.ld_unit_zero (S := S4096) zero_offsets1, View.ld_unit_zero (S := S64x40) zero_offsets2]
  rw [payload_eq]
  funext j
  obtain ⟨-, -, -, -, -, e5, e6⟩ := index_facts t
  have ht : t.val < 25 := lt_of_lt_of_eq t.isLt N_1
  have hj0 : (j 0).val < 4096 := (j 0).isLt
  have hr : t.val * 4096 + (j 0).val < 102400 := by omega
  have hemb : ((cfg1.win 3).blk t).view.emb j = (ix2 (⟨t.val * 4096 + (j 0).val, hr⟩ : Fin 102400) (j 1) : S102400x40.Idx) := by
    funext d
    apply Fin.ext
    match d with
    | ⟨0, _⟩ => show win1_3.index t (0 : Fin 2) * 4096 + 1 * (j 0).val = t.val * 4096 + (j 0).val; rw [e5]; omega
    | ⟨1, _⟩ => show win1_3.index t (1 : Fin 2) * 40 + 1 * (j 1).val = (j 1).val; rw [e6]; omega
  show scaleRows (m := 4096) (k := 64) (n := 40) (iblk1 V c 0 t) (iblk1 V c 1 t) (iblk1 V c 2 t) (ix2 (j 0) (j 1))
      = scaleRows (m := 102400) (k := 64) (n := 40) (V c main_v31) (V c main_v32) (V c main_arg5) (((cfg1.win 3).blk t).view.emb j)
  rw [hemb]
  exact scaleRows_row_congr _ _ _ _ _ _ (j 0) (j 1) ⟨t.val * 4096 + (j 0).val, hr⟩
    (fun k => blk0_apply V c t (j 0) k _ rfl) (blk1_apply V c t (j 0) _ rfl) (fun k => blk2_apply V c t k (j 1))

/-- An index of the result array is in point t's block iff each coordinate is in the block's range on its axis. -/
private theorem mem_blk (t : Fin cfg1.N) (i : S102400x40.Idx) :
    i ∈ ((cfg1.win 3).blk t).view.set ↔ ∀ a : Fin 2, win1_3.index t a * S4096x40.size a ≤ (i a).val ∧ (i a).val < win1_3.index t a * S4096x40.size a + S4096x40.size a := by
  show i ∈ ((View.whole main_v33).slice (win1_3.rect t)).set ↔ _
  rw [View.set_slice_whole, Rect.mem_set_unit]
  exact Iff.rfl

/-- The 25 row blocks of 4096 tile the 102400 rows: row r is in the block of point r / 4096, which writes back. -/
private theorem cover (i : S102400x40.Idx) :
    ∃ t : Fin cfg1.N, (cfg1.win 3).flush t = true ∧ i ∈ ((cfg1.win 3).blk t).view.set := by
  have hi0 : (i 0).val < 102400 := (i 0).isLt
  have hi1 : (i 1).val < 40 := (i 1).isLt
  have hN : cfg1.N = 25 := N_1
  have hq : (i 0).val / 4096 < cfg1.N := by rw [hN]; omega
  refine ⟨⟨(i 0).val / 4096, hq⟩, flush1_3 _, ?_⟩
  obtain ⟨-, -, -, -, -, e5, e6⟩ := index_facts ⟨(i 0).val / 4096, hq⟩
  rw [mem_blk]
  intro a
  match a with
  | ⟨0, _⟩ => show win1_3.index ⟨(i 0).val / 4096, hq⟩ (0 : Fin 2) * 4096 ≤ (i 0).val ∧ (i 0).val < win1_3.index ⟨(i 0).val / 4096, hq⟩ (0 : Fin 2) * 4096 + 4096; rw [e5]; show (i 0).val / 4096 * 4096 ≤ (i 0).val ∧ (i 0).val < (i 0).val / 4096 * 4096 + 4096; omega
  | ⟨1, _⟩ => show win1_3.index ⟨(i 0).val / 4096, hq⟩ (1 : Fin 2) * 40 ≤ (i 1).val ∧ (i 1).val < win1_3.index ⟨(i 0).val / 4096, hq⟩ (1 : Fin 2) * 40 + 40; rw [e6]; omega

/-- The output array of the second pallas_call after its run: rows scaled, then multiplied, of the padded hidden features,
    the padded row factors and the second weight matrix as the region finds them. -/
theorem arrAt1_eq (c : Dev nD) :
    (dat1 (F := Ideal) V c).arrAt 3 cfg1.N
      = scaleRows (m := 102400) (k := 64) (n := 40) (V c main_v31) (V c main_v32) (V c main_arg5) :=
  (dat1 (F := Ideal) V c).arrAt_eq_of_cover 3 _ (fun t _ => flushed_eq V c t) cover

end Cert.KernelIdeal.RegionValue1

end
-- ==== Proof.Bridge.lean ====
/-
  The two programs compute one function. Both apply, to the same arguments, the same host operations — the two degree
  normalisations, and per layer the gather along the edges' sources, the per-destination sum, the row-wise scaling and
  the bias — around one dense step per layer. The reference's dense step is a dot_general of the row-scaled features
  with the weights. The kernel's is: pad features and factors with 2400 rows, run the pallas_call (whose output array
  is rows-scaled-then-multiplied of the padded arrays), cut back to 100000 rows. A row of that product depends on the
  same row of the features and factors only, so the cut-back product of the padded arrays is the product of the
  arrays themselves, which is the reference's dot_general read entry by entry: Σ_c (X(a, c) · S(a)) · W(c, b) on the
  extended reals on both sides, with no rearrangement of the sum. Everything else is the same term on both sides.
-/
import proofs.«127029_j18047452578197_1_alg».proof.Proof.Gen.ReferenceIdeal.Run
import proofs.«127029_j18047452578197_1_alg».proof.Proof.KFold
import proofs.«127029_j18047452578197_1_alg».proof.Proof.RegionValue0
import proofs.«127029_j18047452578197_1_alg».proof.Proof.RegionValue1
import proofs.«127029_j18047452578197_1_alg».proof.Proof.LibScaleMatmul

set_option maxRecDepth 16384

noncomputable section

namespace Cert.Bridge

open Idealize.ShloMosaic Idealize.ShloMosaic.TcCoe Idealize.SL.Sem
open Idealize.ShloMosaic.LibScaleMatmul

/-! ## One dense step: cut-back product of the padded arrays = the reference's dot_general -/

/-- Layer 1 (256 → 64). -/
theorem dense1 (x : FVec Ideal Cert.KernelIdeal.S100000x256 .f32) (s : FVec Ideal Cert.KernelIdeal.S100000 .f32)
    (w : FVec Ideal Cert.KernelIdeal.S256x64 .f32) (z z' : FVec Ideal Cert.KernelIdeal.S_ .f32) :
    extractStridedSlice Cert.KernelIdeal.S100000x64 ![0, 0]
        (scaleRows (m := 102400) (k := 256) (n := 64)
          (pad Cert.KernelIdeal.S102400x256 ![0, 0] ![2400, 0] ![0, 0] x z Cert.KernelIdeal.Facts₀.pads_S100000x256_S102400x256_024000_000 Cert.KernelIdeal.Facts₀.h_S_)
          (pad Cert.KernelIdeal.S102400 ![0] ![2400] ![0] s z' Cert.KernelIdeal.Facts₀.pads_S100000_S102400_024000 Cert.KernelIdeal.Facts₀.h_S_) w)
        Cert.KernelIdeal.Facts₀.slices_S102400x64_S100000x64_0_0
      = Host.dotGeneral Cert.ReferenceIdeal.dot_S100000x256_S256x64_S100000x64_1_0_0_1_n_n none
          (mulf x (broadcastInDim Cert.ReferenceIdeal.S100000x256 ![0, 1] Cert.ReferenceIdeal.Facts₀.bcast_S100000x1_S100000x256_0_1
            (broadcastInDim Cert.ReferenceIdeal.S100000x1 ![0] Cert.ReferenceIdeal.Facts₀.bcast_S100000_S100000x1_0 s))) w :=
  (slice_scaleRows_pad (m := 100000) (M := 102400) (k := 256) (n := 64) (p := 2400) (by norm_num) x s w z z'
      Cert.KernelIdeal.Facts₀.pads_S100000x256_S102400x256_024000_000 Cert.KernelIdeal.Facts₀.pads_S100000_S102400_024000 Cert.KernelIdeal.Facts₀.h_S_
      Cert.KernelIdeal.Facts₀.slices_S102400x64_S100000x64_0_0).trans
    (hostDot_eq_scaleRows (m := 100000) (k := 256) (n := 64) x s w Cert.ReferenceIdeal.Facts₀.bcast_S100000_S100000x1_0
      Cert.ReferenceIdeal.Facts₀.bcast_S100000x1_S100000x256_0_1).symm

/-- Layer 2 (64 → 40). -/
theorem dense2 (x : FVec Ideal Cert.KernelIdeal.S100000x64 .f32) (s : FVec Ideal Cert.KernelIdeal.S100000 .f32)
    (w : FVec Ideal Cert.KernelIdeal.S64x40 .f32) (z z' : FVec Ideal Cert.KernelIdeal.S_ .f32) :
    extractStridedSlice Cert.KernelIdeal.S100000x40 ![0, 0]
        (scaleRows (m := 102400) (k := 64) (n := 40)
          (pad Cert.KernelIdeal.S102400x64 ![0, 0] ![2400, 0] ![0, 0] x z Cert.KernelIdeal.Facts₀.pads_S100000x64_S102400x64_024000_000 Cert.KernelIdeal.Facts₀.h_S_)
          (pad Cert.KernelIdeal.S102400 ![0] ![2400] ![0] s z' Cert.KernelIdeal.Facts₀.pads_S100000_S102400_024000 Cert.KernelIdeal.Facts₀.h_S_) w)
        Cert.KernelIdeal.Facts₀.slices_S102400x40_S100000x40_0_0
      = Host.dotGeneral Cert.ReferenceIdeal.dot_S100000x64_S64x40_S100000x40_1_0_0_1_n_n none
          (mulf x (broadcastInDim Cert.ReferenceIdeal.S100000x64 ![0, 1] Cert.ReferenceIdeal.Facts₀.bcast_S100000x1_S100000x64_0_1
            (broadcastInDim Cert.ReferenceIdeal.S100000x1 ![0] Cert.ReferenceIdeal.Facts₀.bcast_S100000_S100000x1_0 s))) w :=
  (slice_scaleRows_pad (m := 100000) (M := 102400) (k := 64) (n := 40) (p := 2400) (by norm_num) x s w z z'
      Cert.KernelIdeal.Facts₀.pads_S100000x64_S102400x64_024000_000 Cert.KernelIdeal.Facts₀.pads_S100000_S102400_024000 Cert.KernelIdeal.Facts₀.h_S_
      Cert.KernelIdeal.Facts₀.slices_S102400x40_S100000x40_0_0).trans
    (hostDot_eq_scaleRows (m := 100000) (k := 64) (n := 40) x s w Cert.ReferenceIdeal.Facts₀.bcast_S100000_S100000x1_0
      Cert.ReferenceIdeal.Facts₀.bcast_S100000x1_S100000x64_0_1).symm

/-! ## The kernel's result buffer holds the reference's result -/

open Cert.KernelIdeal Cert.KernelIdeal.Gen in
/-- What the kernel's program leaves in its result buffer, from a memory agreeing with the reference's on the seven
    arguments, is the reference's composed term. -/
theorem kernel_eq_ref (m : (ℓ : Loc Cert.KernelIdeal.nD Cert.KernelIdeal.τ Cert.KernelIdeal.sig) → Buf (Elt Ideal) ℓ)
    (ρ : Dev Cert.KernelIdeal.nD → PrngReg)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) :
    Cert.ReferenceIdeal.Value.res_main_v61 m' c = W15 m ρ c (Proc.devRef .tc main_v50) := by
  -- the kernel's side, boundary by boundary, down to the launch memory
  rw [Cert.KernelIdeal.KFold.W15_v50, Cert.KernelIdeal.RegionValue1.arrAt1_eq, Cert.KernelIdeal.KFold.V13_v31,
    Cert.KernelIdeal.KFold.V13_v32, Cert.KernelIdeal.KFold.V13_arg5, dense2,
    Cert.KernelIdeal.RegionValue0.arrAt0_eq, Cert.KernelIdeal.KFold.V8_v11, Cert.KernelIdeal.KFold.V8_v12,
    Cert.KernelIdeal.KFold.V8_arg3, dense1]
  -- the reference's side: its composed term over the same arguments
  unfold Cert.ReferenceIdeal.Value.res_main_v61
  rw [h0, h1, h2, h3, h4, h5, h6]
  rfl

end Cert.Bridge

end
-- ==== Proof.lean ====
/-
  The certificate of a two-layer graph convolution (DGL's GraphConv with both-side degree normalisation): per layer
      out = (Σ over edges into a node of  h[source]) · D_in^{-1/2} + b,   h = (x · D_out^{-1/2}) W,
  the kernel computing h by a row-tiled pallas_call (features and factors padded to 102400 rows, 25 blocks of 4096 rows,
  the factor fused into the product's left operand, bf16 operands and an f32 result) and the reference by a dot_general.
  At the ideal values a change of float format is the identity and both dense steps are the same sum
  Σ_c (x(a, c) · s(a)) · W(c, b) on the extended reals, entry by entry and in the same arrangement, so no law beyond
  reading the operations at an index is needed and the finiteness of the inputs is never used. The gathers, the
  per-destination sums, the normalisations and the biases are the same host operations applied to equal values.
  The three frames: the two kernel programs' by the generated frame certificates, the reference's by its generated run.
  preserves is trivial (the idealisation rewrote nothing). algebraic: the kernel's run with the result buffer read
  (the generated launch called once more), the reference's generated run, and the equality of the two terms (Bridge).
-/
import proofs.«127029_j18047452578197_1_alg».proof.Defs
import proofs.«127029_j18047452578197_1_alg».proof.Proof.Gen.Kernel
import proofs.«127029_j18047452578197_1_alg».proof.Proof.Gen.Kernel.Skeleton
import proofs.«127029_j18047452578197_1_alg».proof.Proof.Gen.Kernel.Launch
import proofs.«127029_j18047452578197_1_alg».proof.Proof.Gen.Kernel.Points
import proofs.«127029_j18047452578197_1_alg».proof.Proof.Gen.Kernel.Frame
import proofs.«127029_j18047452578197_1_alg».proof.Proof.Gen.KernelIdeal
import proofs.«127029_j18047452578197_1_alg».proof.Proof.Gen.KernelIdeal.Skeleton
import proofs.«127029_j18047452578197_1_alg».proof.Proof.Gen.KernelIdeal.Launch
import proofs.«127029_j18047452578197_1_alg».proof.Proof.Gen.KernelIdeal.Points
import proofs.«127029_j18047452578197_1_alg».proof.Proof.Gen.KernelIdeal.Frame
import proofs.«127029_j18047452578197_1_alg».proof.Proof.Gen.ReferenceIdeal
import proofs.«127029_j18047452578197_1_alg».proof.Proof.Gen.ReferenceIdeal.Run
import proofs.«127029_j18047452578197_1_alg».proof.Proof.Gen.Pre_finite_inputs
import proofs.«127029_j18047452578197_1_alg».proof.Proof.KRun
import proofs.«127029_j18047452578197_1_alg».proof.Proof.Bridge
import Idealize.ShloMosaic.Adequacy
import Idealize.ShloMosaic.Init

noncomputable section

namespace Cert.Proof

open Idealize.ShloMosaic Idealize.ShloMosaic.TcCoe Idealize.SL.Sem

/-- The word-level kernel program runs and leaves its arguments unchanged. -/
theorem frame_k : Cert.frame_Kernel := fun m ρ _ => Cert.Kernel.Gen.frame m ρ

/-- So does the idealized kernel program. -/
theorem frame_ki : Cert.frame_KernelIdeal := fun m ρ _ => Cert.KernelIdeal.Gen.frame m ρ

/-- The reference is host operations only: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the seven arguments both programs end with the same result array. -/
theorem algebraic : Cert.algebraic_KernelIdeal_ReferenceIdeal := by
  intro m ρ m' ρ' _ hagree
  refine ⟨_, Cert.KernelIdeal.KRun.run_v50 (F := Ideal) m ρ, ?_⟩
  refine (θ_run Cert.ReferenceIdeal.defs _ _).mono (fun _ h c => ⟨(h c).1.trans ?_, (h c).2⟩)
    (Cert.ReferenceIdeal.Value.run (F := Ideal) m' ρ')
  exact Cert.Bridge.kernel_eq_ref m ρ m' c (hagree c).1 (hagree c).2.1 (hagree c).2.2.1 (hagree c).2.2.2.1
    (hagree c).2.2.2.2.1 (hagree c).2.2.2.2.2.1 (hagree c).2.2.2.2.2.2

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
